-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_32000" .f32 0x3803126F#32 ((1 / 32000 : ℝ) : EReal)
  ∧ IdealRules.named_const.Statement Cert.KernelIdeal.κ "neg_big" .f32 0xF149F2CA#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x32000 : Shape := ⟨2, ![256, 32000]⟩
abbrev S256x512x512 : Shape := ⟨3, ![256, 512, 512]⟩
abbrev S256 : Shape := ⟨1, ![256]⟩
abbrev S_ : Shape := ⟨0, ![]⟩

class Facts : Prop where
  bcast_S_S256x32000 : S_.BroadcastsInDim S256x32000 (![] : Fin 0 → Fin S256x32000.rank)
  reducesTo_S256x32000_S_d0_1 : S256x32000.ReducesTo [0, 1] S_
  h_S_ : 0 < S_.numel
  bcast_S_S256x512x512 : S_.BroadcastsInDim S256x512x512 (![] : Fin 0 → Fin S256x512x512.rank)
  reducesTo_S256x512x512_S_d0_1_2 : S256x512x512.ReducesTo [0, 1, 2] S_
  bcast_S_S256 : S_.BroadcastsInDim S256 (![] : Fin 0 → Fin S256.rank)
  reducesTo_S256_S_d0 : S256.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S256x32000 .f32) (main_arg1 : FVec F S256x512x512 .f32) (main_arg2 : IVec S256 32) : IVec S_ 1 :=
  let main_v0 : FVec F S256x32000 .f32 := Host.absf main_arg0
  let main_cst : FVec F S_ .f32 := constant S_ .f32 0x7F800000#32
  let main_v1 : FVec F S256x32000 .f32 := broadcastInDim S256x32000 ![] bcast_S_S256x32000 main_cst
  let main_v2 : IVec S256x32000 1 := cmpf .olt main_v0 main_v1
  let main_c : IVec S_ 1 := constantI S_ 1 1#1
  let main_v3 : IVec S_ 1 := (fun x v => Host.reduce IntOp.andi x v reducesTo_S256x32000_S_d0_1 h_S_) main_v2 main_c
  let main_v4 : FVec F S256x512x512 .f32 := Host.absf main_arg1
  let main_cst_0 : FVec F S_ .f32 := constant S_ .f32 0x7F800000#32
  let main_v5 : FVec F S256x512x512 .f32 := broadcastInDim S256x512x512 ![] bcast_S_S256x512x512 main_cst_0
  let main_v6 : IVec S256x512x512 1 := cmpf .olt main_v4 main_v5
  let main_c_1 : IVec S_ 1 := constantI S_ 1 1#1
  let main_v7 : IVec S_ 1 := (fun x v => Host.reduce IntOp.andi x v reducesTo_S256x512x512_S_d0_1_2 h_S_) main_v6 main_c_1
  let main_v8 : IVec S_ 1 := andi main_v3 main_v7
  let main_c_2 : IVec S_ 32 := constantI S_ 32 0#32
  let main_v9 : IVec S256 32 := broadcastInDim S256 ![] bcast_S_S256 main_c_2
  let main_v10 : IVec S256 1 := cmpi .sge main_arg2 main_v9
  let main_c_3 : IVec S_ 1 := constantI S_ 1 1#1
  let main_v11 : IVec S_ 1 := (fun x v => Host.reduce IntOp.andi x v reducesTo_S256_S_d0 h_S_) main_v10 main_c_3
  let main_v12 : IVec S_ 1 := andi main_v8 main_v11
  let main_c_4 : IVec S_ 32 := constantI S_ 32 32000#32
  let main_v13 : IVec S256 32 := broadcastInDim S256 ![] bcast_S_S256 main_c_4
  let main_v14 : IVec S256 1 := cmpi .slt main_arg2 main_v13
  let main_c_5 : IVec S_ 1 := constantI S_ 1 1#1
  let main_v15 : IVec S_ 1 := (fun x v => Host.reduce IntOp.andi x v reducesTo_S256_S_d0 h_S_) main_v14 main_c_5
  fn_part1 (F := F) main_v12 main_v15
-- ==== Kernel.lean ====
abbrev S256x32000 : Shape := ⟨2, ![256, 32000]⟩
abbrev S256x512x512 : Shape := ⟨3, ![256, 512, 512]⟩
abbrev S256 : Shape := ⟨1, ![256]⟩
abbrev S256x1 : Shape := ⟨2, ![256, 1]⟩
abbrev S512x512 : Shape := ⟨2, ![512, 512]⟩
abbrev S_ : Shape := ⟨0, ![]⟩
abbrev S32x32000 : Shape := ⟨2, ![32, 32000]⟩
abbrev S32x1 : Shape := ⟨2, ![32, 1]⟩
abbrev S32 : Shape := ⟨1, ![32]⟩
abbrev S8x512x512 : Shape := ⟨3, ![8, 512, 512]⟩
abbrev S8x1 : Shape := ⟨2, ![8, 1]⟩
abbrev S1x512x512 : Shape := ⟨3, ![1, 512, 512]⟩
abbrev S8x512 : Shape := ⟨2, ![8, 512]⟩
abbrev S8 : Shape := ⟨1, ![8]⟩

abbrev nBuf : Space → Nat
  | .hbm => 30
  | .vmem => 11
  | .smem => 0
  | _ => 0

abbrev bufTy : (tb : Table) → Fin (tcTables nBuf tb) → BufTy
  | .hbm, ⟨0, _⟩ => ⟨S256x32000, .f32⟩
  | .hbm, ⟨1, _⟩ => ⟨S256x512x512, .f32⟩
  | .hbm, ⟨2, _⟩ => ⟨S256, .i32⟩
  | .hbm, ⟨3, _⟩ => ⟨S256x1, .i32⟩
  | .hbm, ⟨4, _⟩ => ⟨S512x512, .i32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i1⟩
  | .hbm, ⟨10, _⟩ => ⟨S512x512, .f32⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S256x1, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S256x1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x1, .i32⟩
  | .local _ .vmem, ⟨3, _⟩ => ⟨S32x1, .i32⟩
  | .local _ .vmem, ⟨4, _⟩ => ⟨S32x1, .f32⟩
  | .local _ .vmem, ⟨5, _⟩ => ⟨S32x1, .f32⟩
  | .local _ .vmem, ⟨6, _⟩ => ⟨S8x512x512, .f32⟩
  | .local _ .vmem, ⟨7, _⟩ => ⟨S8x512x512, .f32⟩
  | .local _ .vmem, ⟨8, _⟩ => ⟨S512x512, .f32⟩
  | .local _ .vmem, ⟨9, _⟩ => ⟨S8x1, .f32⟩
  | .local _ .vmem, ⟨10, _⟩ => ⟨S8x1, .f32⟩
  | _, _ => ⟨S256x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S256_S256x1 : S256.ShapeCasts S256x1
  bcast_S_S512x512 : S_.BroadcastsInDim S512x512 (![] : Fin 0 → Fin S512x512.rank)
  inb_S32x32000_S32x32000_0_0 : ∀ a, (![0, 0] : Fin 2 → Nat) a + S32x32000.size a ≤ S32x32000.size a
  h_S32x32000 : 0 < S32x32000.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x32000_S32 : S32x32000.Reduces [1] S32
  shapeCasts_S32_S32x1 : S32.ShapeCasts S32x1
  broadcasts_S32x1_S32x32000 : S32x1.Broadcasts S32x32000
  iota_S32x32000_d1_w32 : S32x32000.Iotas .tc 32 [1]
  reducesTo_S256x1_S_d0_1 : S256x1.ReducesTo [0, 1] S_
  h_S_ : 0 < S_.numel
  inb_S8x512x512_S8x512x512_0_0_0 : ∀ a, (![0, 0, 0] : Fin 3 → Nat) a + S8x512x512.size a ≤ S8x512x512.size a
  h_S8x512x512 : 0 < S8x512x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  broadcasts_S1x512x512_S8x512x512 : S1x512x512.Broadcasts S8x512x512
  reduces_S8x512x512_S8x512 : S8x512x512.Reduces [2] S8x512
  reduces_S8x512_S8 : S8x512.Reduces [1] S8
  shapeCasts_S8_S8x1 : S8.ShapeCasts S8x1
  inb_S8x1_S8x1_0_0 : ∀ a, (![0, 0] : Fin 2 → Nat) a + S8x1.size a ≤ S8x1.size a
  h_S8x1 : 0 < S8x1.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S256x32000.size a
  hwx0_0 : ∀ i : grid0.Coords, EltTy.bits .f32 = 32 ∨ (Rect.block (s := S256x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S256x1.size a
  hwx0_1 : ∀ i : grid0.Coords, EltTy.bits .i32 = 32 ∨ (Rect.block (s := S256x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x1.size a ≤ S256x1.size a
  hwx0_2 : ∀ i : grid0.Coords, EltTy.bits .f32 = 32 ∨ (Rect.block (s := S256x1) S32x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x512.size a ≤ S256x512x512.size a
  hwx1_0 : ∀ i : grid1.Coords, EltTy.bits .f32 = 32 ∨ (Rect.block (s := S256x512x512) S8x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x1.size a ≤ S256x1.size a
  hwx1_2 : ∀ i : grid1.Coords, EltTy.bits .f32 = 32 ∨ (Rect.block (s := S256x1) S8x1.size (cc1_transform_2 i) (hinb1_2 i)).WholeWords (EltTy.packing .f32)

variable [Facts₀]

abbrev win0_0 : Pipeline.Window sig grid0 :=
  Pipeline.Window.ofSpec (Memref.whole main_arg0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S32x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S8x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S8x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x32000 : Shape := ⟨2, ![256, 32000]⟩
abbrev S256x512x512 : Shape := ⟨3, ![256, 512, 512]⟩
abbrev S256 : Shape := ⟨1, ![256]⟩
abbrev S_ : Shape := ⟨0, ![]⟩
abbrev S256x1 : Shape := ⟨2, ![256, 1]⟩
abbrev S256x1x1 : Shape := ⟨3, ![256, 1, 1]⟩
abbrev S1 : Shape := ⟨1, ![1]⟩
abbrev S1x1x1 : Shape := ⟨3, ![1, 1, 1]⟩
abbrev S512x512 : Shape := ⟨2, ![512, 512]⟩
abbrev S1x512x512 : Shape := ⟨3, ![1, 512, 512]⟩

abbrev nBuf : Space → Nat
  | .hbm => 85
  | .vmem => 0
  | .smem => 0
  | _ => 0

abbrev bufTy : (tb : Table) → Fin (tcTables nBuf tb) → BufTy
  | .hbm, ⟨0, _⟩ => ⟨S256x32000, .f32⟩
  | .hbm, ⟨1, _⟩ => ⟨S256x512x512, .f32⟩
  | .hbm, ⟨2, _⟩ => ⟨S256, .i32⟩
  | .hbm, ⟨3, _⟩ => ⟨S_, .f32⟩
  | .hbm, ⟨4, _⟩ => ⟨S256, .f32⟩
  | .hbm, ⟨5, _⟩ => ⟨S_, .f32⟩
  | .hbm, ⟨6, _⟩ => ⟨S256, .f32⟩
  | .hbm, ⟨7, _⟩ => ⟨S256, .f32⟩
  | .hbm, ⟨8, _⟩ => ⟨S256x1, .f32⟩
  | .hbm, ⟨9, _⟩ => ⟨S256x32000, .f32⟩
  | .hbm, ⟨10, _⟩ => ⟨S256x32000, .f32⟩
  | .hbm, ⟨11, _⟩ => ⟨S256x32000, .f32⟩
  | .hbm, ⟨12, _⟩ => ⟨S_, .f32⟩
  | .hbm, ⟨13, _⟩ => ⟨S256, .f32⟩
  | .hbm, ⟨14, _⟩ => ⟨S256x1, .f32⟩
  | .hbm, ⟨15, _⟩ => ⟨S256x1, .f32⟩
  | .hbm, ⟨16, _⟩ => ⟨S256x32000, .f32⟩
  | .hbm, ⟨17, _⟩ => ⟨S256x32000, .f32⟩
  | .hbm, ⟨18, _⟩ => ⟨S256x1, .i32⟩
  | .hbm, ⟨19, _⟩ => ⟨S_, .i32⟩
  | .hbm, ⟨20, _⟩ => ⟨S256x1, .i32⟩
  | .hbm, ⟨21, _⟩ => ⟨S256x1, .i1⟩
  | .hbm, ⟨22, _⟩ => ⟨S_, .i32⟩
  | .hbm, ⟨23, _⟩ => ⟨S256x1, .i32⟩
  | .hbm, ⟨24, _⟩ => ⟨S256x1, .i32⟩
  | .hbm, ⟨25, _⟩ => ⟨S256x1, .i32⟩
  | .hbm, ⟨26, _⟩ => ⟨S256x1x1, .i32⟩
  | .hbm, ⟨27, _⟩ => ⟨S1, .i32⟩
  | .hbm, ⟨28, _⟩ => ⟨S_, .i32⟩
  | .hbm, ⟨29, _⟩ => ⟨S256x1x1, .i32⟩
  | .hbm, ⟨30, _⟩ => ⟨S256x1x1, .i1⟩
  | .hbm, ⟨31, _⟩ => ⟨S1x1x1, .i32⟩
  | .hbm, ⟨32, _⟩ => ⟨S256x1x1, .i32⟩
  | .hbm, ⟨33, _⟩ => ⟨S256x1x1, .i1⟩
  | .hbm, ⟨34, _⟩ => ⟨S256x1x1, .i1⟩
  | .hbm, ⟨35, _⟩ => ⟨S_, .i1⟩
  | .hbm, ⟨36, _⟩ => ⟨S256x1, .i1⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S256, .f32⟩
  | .hbm, ⟨42, _⟩ => ⟨S256, .f32⟩
  | .hbm, ⟨43, _⟩ => ⟨S_, .f32⟩
  | .hbm, ⟨44, _⟩ => ⟨S256, .f32⟩
  | .hbm, ⟨45, _⟩ => ⟨S_, .f32⟩
  | .hbm, ⟨46, _⟩ => ⟨S256, .f32⟩
  | .hbm, ⟨47, _⟩ => ⟨S256, .f32⟩
  | .hbm, ⟨48, _⟩ => ⟨S256, .f32⟩
  | .hbm, ⟨49, _⟩ => ⟨S_, .f32⟩
  | .hbm, ⟨50, _⟩ => ⟨S256, .f32⟩
  | .hbm, ⟨51, _⟩ => ⟨S256, .f32⟩
  | .hbm, ⟨52, _⟩ => ⟨S_, .f32⟩
  | .hbm, ⟨53, _⟩ => ⟨S256, .f32⟩
  | .hbm, ⟨54, _⟩ => ⟨S256, .f32⟩
  | .hbm, ⟨55, _⟩ => ⟨S256, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S512x512, .i32⟩
  | .hbm, ⟨61, _⟩ => ⟨S512x512, .i32⟩
  | .hbm, ⟨62, _⟩ => ⟨S_, .i32⟩
  | .hbm, ⟨63, _⟩ => ⟨S512x512, .i32⟩
  | .hbm, ⟨64, _⟩ => ⟨S512x512, .i32⟩
  | .hbm, ⟨65, _⟩ => ⟨S512x512, .i1⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S_, .f32⟩
  | .hbm, ⟨71, _⟩ => ⟨S512x512, .f32⟩
  | .hbm, ⟨72, _⟩ => ⟨S512x512, .f32⟩
  | .hbm, ⟨73, _⟩ => ⟨S1x512x512, .f32⟩
  | .hbm, ⟨74, _⟩ => ⟨S256x512x512, .f32⟩
  | .hbm, ⟨75, _⟩ => ⟨S256x512x512, .f32⟩
  | .hbm, ⟨76, _⟩ => ⟨S_, .f32⟩
  | .hbm, ⟨77, _⟩ => ⟨S256, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S256x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v0 : Ref sig .tc := ⟨.hbm, 17, rfl⟩
abbrev main_v1 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v2 : Ref sig .tc := ⟨.hbm, 40, rfl⟩
abbrev main_v3 : Ref sig .tc := ⟨.hbm, 41, rfl⟩
abbrev main_v4 : Ref sig .tc := ⟨.hbm, 42, rfl⟩
abbrev main_cst : Ref sig .tc := ⟨.hbm, 43, rfl⟩
abbrev main_v5 : Ref sig .tc := ⟨.hbm, 44, rfl⟩
abbrev main_cst_0 : Ref sig .tc := ⟨.hbm, 45, rfl⟩
abbrev main_v6 : Ref sig .tc := ⟨.hbm, 46, rfl⟩
abbrev main_v7 : Ref sig .tc := ⟨.hbm, 47, rfl⟩
abbrev main_v8 : Ref sig .tc := ⟨.hbm, 48, rfl⟩
abbrev main_cst_1 : Ref sig .tc := ⟨.hbm, 49, rfl⟩
abbrev main_v9 : Ref sig .tc := ⟨.hbm, 50, rfl⟩
abbrev main_v10 : Ref sig .tc := ⟨.hbm, 51, rfl⟩
abbrev main_cst_2 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_cst_3 : Ref sig .tc := ⟨.hbm, 56, rfl⟩
abbrev main_v14 : Ref sig .tc := ⟨.hbm, 57, rfl⟩
abbrev main_cst_4 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_c : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_cst_5 : Ref sig .tc := ⟨.hbm, 67, rfl⟩
abbrev main_v22 : Ref sig .tc := ⟨.hbm, 68, rfl⟩
abbrev main_v23 : Ref sig .tc := ⟨.hbm, 69, rfl⟩
abbrev main_cst_6 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_7 : Ref sig .tc := ⟨.hbm, 76, rfl⟩
abbrev main_v29 : Ref sig .tc := ⟨.hbm, 77, rfl⟩
abbrev main_cst_8 : Ref sig .tc := ⟨.hbm, 78, rfl⟩
abbrev main_v30 : Ref sig .tc := ⟨.hbm, 79, rfl⟩
abbrev main_cst_9 : Ref sig .tc := ⟨.hbm, 80, rfl⟩
abbrev main_v31 : Ref sig .tc := ⟨.hbm, 81, rfl⟩
abbrev main_cst_10 : Ref sig .tc := ⟨.hbm, 82, rfl⟩
abbrev main_v32 : Ref sig .tc := ⟨.hbm, 83, rfl⟩
abbrev main_v33 : Ref sig .tc := ⟨.hbm, 84, rfl⟩

abbrev nD : Nat := 1
abbrev τ : Topo := Topo.v7x

variable {F : FTy → Type} [FloatOps F]

class Facts₀ : Prop where
  reducesTo_S256x32000_S256_d1 : S256x32000.ReducesTo [1] S256
  h_S_ : 0 < S_.numel
  bcast_S_S256 : S_.BroadcastsInDim S256 (![] : Fin 0 → Fin S256.rank)
  bcast_S256_S256x1_0 : S256.BroadcastsInDim S256x1 (![0] : Fin 1 → Fin S256x1.rank)
  bcast_S256x1_S256x32000_0_1 : S256x1.BroadcastsInDim S256x32000 (![0, 1] : Fin 2 → Fin S256x32000.rank)
  bcast_S_S256x1 : S_.BroadcastsInDim S256x1 (![] : Fin 0 → Fin S256x1.rank)
  shapeCasts_S256x1_S256x1x1 : S256x1.ShapeCasts S256x1x1
  bcast_S_S256x1x1 : S_.BroadcastsInDim S256x1x1 (![] : Fin 0 → Fin S256x1x1.rank)
  bcast_S1_S1x1x1_2 : S1.BroadcastsInDim S1x1x1 (![2] : Fin 1 → Fin S1x1x1.rank)
  bcast_S1x1x1_S256x1x1_0_1_2 : S1x1x1.BroadcastsInDim S256x1x1 (![0, 1, 2] : Fin 3 → Fin S256x1x1.rank)
  reducesTo_S256x1x1_S256x1_d2 : S256x1x1.ReducesTo [2] S256x1
  shapeCasts_S256x1_S256 : S256x1.ShapeCasts S256
  reducesTo_S256_S_d0 : S256.ReducesTo [0] S_
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S256x512x512_0_1_2 : S1x512x512.BroadcastsInDim S256x512x512 (![0, 1, 2] : Fin 3 → Fin S256x512x512.rank)
  reducesTo_S256x512x512_S256_d1_2 : S256x512x512.ReducesTo [1, 2] S256
  gather_S256x32000_S256x1x1_S256x1_n_1_0_0_1_2_11_wf : GatherDims.WF S256x32000 S256x1x1 S256x1 [] [1] [0] [1] [0] 2 ![1, 1]

variable [Facts₀]

def gather_S256x32000_S256x1x1_S256x1_n_1_0_0_1_2_11 : GatherDims S256x32000 S256x1x1 S256x1 where
  offsetDims := []
  collapsedSliceDims := [1]
  operandBatchingDims := [0]
  startIndicesBatchingDims := [0]
  startIndexMap := [1]
  indexVectorDim := 2
  sliceSizes := ![1, 1]
  wf := gather_S256x32000_S256x1x1_S256x1_n_1_0_0_1_2_11_wf

class Facts : Prop extends Facts₀ where

variable [Facts]
-- ==== Proof.Spec.lean ====
/-
  The functions of one row that both programs compute, over the extended reals.

  Cross entropy with label smoothing, for one row of 32000 logits and its label t: with M the row's maximum and
  S = Σ_k exp(row k − M), the row's log-sum-exp is M + log S and its log-probabilities are (row k − M) − log S.
  The kernel forms 0.9·(lse − pick) + 0.1·(lse − (Σ_k row k)·(1/32000)), where pick is the maximum over k of
  "row k where k = t, −∞ elsewhere" (a one-hot selection of the label's logit); the reference forms
  0.9·(−logp t) + 0.1·(−(Σ_k logp k)/32000). The two weights are the same two float patterns on both sides and are
  kept as the values those patterns denote.

  The weight term, for one 512 × 512 matrix w and a sign matrix s: the maximum of w·s over all entries, taken row
  by row and then over the rows.
-/
import Idealize.ShloMosaic.PureOps.Ideal
import Idealize.ShloMosaic.PureOps.Ideal.Laws
import Idealize.ShloMosaic.Lib.ValueIdx

noncomputable section

namespace Cert.Spec

open Idealize.ShloMosaic

/-- The weight of the label's term: the value the pattern of f32 0.9 denotes. -/
def c09 : EReal := Ideal.ofBits .f32 0x3F666666#32
/-- The weight of the smoothing term: the value the pattern of f32 0.1 denotes. -/
def c01 : EReal := Ideal.ofBits .f32 0x3DCCCCCD#32

/-- The maximum of a row. -/
def rowMax (row : Fin 32000 → EReal) : EReal := (Finset.univ : Finset (Fin 32000)).fold max ⊥ row
/-- The sum of the exponentials of a row shifted by its maximum. -/
def sumExp (row : Fin 32000 → EReal) : EReal := ∑ k : Fin 32000, Ideal.exp (row k - rowMax row)
/-- The log-sum-exp of a row. -/
def lse (row : Fin 32000 → EReal) : EReal := rowMax row + Ideal.log (sumExp row)
/-- The label's logit selected by a one-hot maximum: the entries off the label read −∞. -/
def pick (row : Fin 32000 → EReal) (t : BitVec 32) : EReal :=
  (Finset.univ : Finset (Fin 32000)).fold max ⊥ (fun k => if BitVec.ofNat 32 k.val = t then row k else ⊥)
/-- The kernel's loss of one row. -/
def ceK (row : Fin 32000 → EReal) (t : BitVec 32) : EReal :=
  c09 * (lse row - pick row t) + c01 * (lse row - (∑ k : Fin 32000, row k) * ((1 / 32000 : ℝ) : EReal))

/-- A row's log-probability at k. -/
def logp (row : Fin 32000 → EReal) (k : Fin 32000) : EReal := (row k - rowMax row) - Ideal.log (sumExp row)
/-- The column a label in range names. -/
def tgt (t : BitVec 32) : Fin 32000 := ⟨t.toNat % 32000, Nat.mod_lt _ (by decide)⟩
/-- The reference's loss of one row. -/
def ceR (row : Fin 32000 → EReal) (t : BitVec 32) : EReal :=
  c09 * (-(logp row (tgt t))) + c01 * (-(Ideal.div (∑ k : Fin 32000, logp row k) (Ideal.ofBits .f32 0x46FA0000#32)))

/-- The maximum of w·s over a 512 × 512 matrix: each row's maximum, then the maximum of those. -/
def wMax (w s : Fin 512 → Fin 512 → EReal) : EReal :=
  (Finset.univ : Finset (Fin 512)).fold max ⊥ (fun p => (Finset.univ : Finset (Fin 512)).fold max ⊥ (fun q => w p q * s p q))

/-- Both programs end the same way: the mean of the 256 row losses plus a tenth of the mean of the 256 maxima. -/
def total (ce wm : Fin 256 → EReal) : EReal :=
  Ideal.div (∑ r : Fin 256, ce r) (Ideal.ofBits .f32 0x43800000#32)
    + Ideal.div (∑ r : Fin 256, wm r) (Ideal.ofBits .f32 0x43800000#32) * c01

end Cert.Spec

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.KernelHost.lean ====
/-
  The host side of the kernel's program, read at the extended reals. Around its two pallas_calls the program
  reshapes the labels into a column and builds the sign matrix 1 − 2·[p = q] before the first call, takes the mean
  of the first call's 256 outputs between the calls, and after the second call takes the mean of its 256 outputs,
  multiplies it by the f32 pattern of 0.1 and adds the two. Here: what each call's input arrays hold when the call
  is entered, and the result as `Spec.total` of the two calls' output columns.
-/
import proofs.«406563_j10934986736275_1_alg».proof.Proof.Gen.KernelIdeal.Frame
import proofs.«406563_j10934986736275_1_alg».proof.Proof.Spec
import proofs.«406563_j10934986736275_1_alg».proof.Proof.LibVecRows
import Idealize.ShloMosaic.Lib.ValueIdx
import Idealize.ShloMosaic.Lib.StableHlo.Run
import Idealize.ShloMosaic.PureOps.Ideal.Laws

set_option maxRecDepth 16384

noncomputable section

namespace Cert.KernelIdeal.Gen

open Idealize.ShloMosaic Idealize.ShloMosaic.TcCoe Idealize.ShloMosaic.ValueIdx Idealize.SL.Sem Idealize.ShloMosaic.StableHlo
open Idealize.ShloMosaic.Pipeline (Dat Cfg Window)

variable (m : (ℓ : Loc nD τ sig) → Buf (Elt Ideal) ℓ) (ρ : Dev nD → PrngReg)

/-- The first call finds the logits as launched. -/
theorem V1_arg0 (c : Dev nD) : V1 m ρ c main_arg0 = m ((c : Thread nD τ).loc main_arg0) := by
  show StableHlo.after hostOps0 (W0 m ρ c) (Proc.devRef .tc main_arg0) = _
  after_results

/-- The first call finds the labels as a column: entry (r, 0) is label r. -/
theorem V1_v0_apply (c : Dev nD) (r : Fin 256) :
    (V1 m ρ c main_v0 : Vec Ideal S256x1 .i32) (ix2 r (0 : Fin 1)) = (m ((c : Thread nD τ).loc main_arg2) : Vec Ideal S256 .i32) (ix1 r) := by
  have e : (V1 m ρ c main_v0 : Vec Ideal S256x1 .i32)
      = shapeCast S256x1 (m ((c : Thread nD τ).loc main_arg2) : Vec Ideal S256 .i32) shapeCasts_S256_S256x1 := by
    show StableHlo.after hostOps0 (W0 m ρ c) (Proc.devRef .tc main_v0) = _
    after_results
    rfl
  rw [e]
  exact Cert.LibVecRows.shapeCast_col_apply _ _ r 0

/-- The sign matrix the host builds: one minus twice the indicator of the diagonal. -/
def signMat : FVec Ideal S512x512 .f32 :=
  subf (broadcastInDim S512x512 ![] bcast_S_S512x512 (constant (F := Ideal) S_ .f32 0x3F800000#32))
    (mulf (broadcastInDim S512x512 ![] bcast_S_S512x512 (constant (F := Ideal) S_ .f32 0x40000000#32))
      (uitofp (F := Ideal) .f32
        (cmpi .eq
          (addi (iotaInDim S512x512 32 0) (broadcastInDim S512x512 ![] bcast_S_S512x512 (constantI S_ 32 0#32)))
          (iotaInDim S512x512 32 1))))

/-- The second call finds the weights as launched, -/
theorem V3_arg1 (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- and the sign matrix. -/
theorem V3_v10 (c : Dev nD) : (V3 m ρ c main_v10 : FVec Ideal S512x512 .f32) = signMat := by
  show StableHlo.after hostOps1 (W2 m ρ c) (Proc.devRef .tc main_v10) = _
  after_results
  rw [W2_of_ne m ρ c main_v10 (by decide)]
  show StableHlo.after hostOps0 (W0 m ρ c) (Proc.devRef .tc main_v10) = _
  after_results
  rfl

/-- The host's sum of a 256 × 1 column over both axes: the initial value plus the sum of its 256 entries. -/
theorem reduceAdd_col (x : FVec Ideal S256x1 .f32) (init : FVec Ideal S_ .f32) (j : S_.Idx) :
    Host.reduceAdd (F := Ideal) x init reducesTo_S256x1_S_d0_1 h_S_ j = init ix0 + ∑ r : Fin 256, x (ix2 r (0 : Fin 1)) := by
  unfold Host.reduceAdd
  rw [Ideal.hostReduceAdd_def, Ideal.hostReduceAdd_total reducesTo_S256x1_S_d0_1 (fun b => b.elim0), eq_ix0 (Shape.Idx.first h_S_)]
  refine congrArg (fun z => init ix0 + z) ?_
  rw [sum_idx2]
  exact Finset.sum_congr rfl fun r _ => Fin.sum_univ_one _

/-- The program's result: the mean of the first call's column plus the pattern of 0.1 times the mean of the
    second call's column. -/
theorem result_eq (c : Dev nD) :
    (W5 m ρ c (Proc.devRef .tc main_v18) : FVec Ideal S_ .f32) ix0
      = Cert.Spec.total (fun r => ((dat0 (V1 m ρ) c).arrAt 2 cfg0.N : Vec Ideal S256x1 .f32) (ix2 r (0 : Fin 1)))
          (fun r => ((dat1 (V3 m ρ) c).arrAt 2 cfg1.N : Vec Ideal S256x1 .f32) (ix2 r (0 : Fin 1))) := by
  have e5 : (W5 m ρ c (Proc.devRef .tc main_v18) : FVec Ideal S_ .f32)
      = addf (W4 m ρ c (Proc.devRef .tc main_v13) : FVec Ideal S_ .f32)
          (mulf (Host.divf (F := Ideal) (Host.reduceAdd (F := Ideal) (W4 m ρ c (Proc.devRef .tc main_v14) : FVec Ideal S256x1 .f32) (constant (F := Ideal) S_ .f32 0x00000000#32) reducesTo_S256x1_S_d0_1 h_S_)
              (constant (F := Ideal) S_ .f32 0x43800000#32))
            (constant (F := Ideal) S_ .f32 0x3DCCCCCD#32)) := by
    show StableHlo.after hostOps2 (W4 m ρ c) (Proc.devRef .tc main_v18) = _
    after_results
  have e13 : (W4 m ρ c (Proc.devRef .tc main_v13) : FVec Ideal S_ .f32)
      = Host.divf (F := Ideal) (Host.reduceAdd (F := Ideal) (W2 m ρ c (Proc.devRef .tc main_v11) : FVec Ideal S256x1 .f32) (constant (F := Ideal) S_ .f32 0x00000000#32) reducesTo_S256x1_S_d0_1 h_S_)
          (constant (F := Ideal) S_ .f32 0x43800000#32) := by
    rw [W4_of_ne m ρ c main_v13 (by decide)]
    show StableHlo.after hostOps1 (W2 m ρ c) (Proc.devRef .tc main_v13) = _
    after_results
  have e11 : (W2 m ρ c (Proc.devRef .tc main_v11) : FVec Ideal S256x1 .f32) = (dat0 (V1 m ρ) c).arrAt 2 cfg0.N := W2_arr m ρ c 2
  have e14 : (W4 m ρ c (Proc.devRef .tc main_v14) : FVec Ideal S256x1 .f32) = (dat1 (V3 m ρ) c).arrAt 2 cfg1.N := W4_arr m ρ c 2
  rw [e5, e13, e11, e14]
  show Ideal.div (Host.reduceAdd (F := Ideal) _ _ reducesTo_S256x1_S_d0_1 h_S_ ix0) (Ideal.ofBits .f32 0x43800000#32)
      + Ideal.div (Host.reduceAdd (F := Ideal) _ _ reducesTo_S256x1_S_d0_1 h_S_ ix0) (Ideal.ofBits .f32 0x43800000#32) * Ideal.ofBits .f32 0x3DCCCCCD#32 = _
  rw [reduceAdd_col, reduceAdd_col]
  show Ideal.div (Ideal.ofBits .f32 0x00000000#32 + _) _ + Ideal.div (Ideal.ofBits .f32 0x00000000#32 + _) _ * _ = _
  rw [Ideal.ofBits_zero_f32, zero_add, zero_add]
  rfl

end Cert.KernelIdeal.Gen

end
-- ==== Proof.LibVecRowMax.lean ====
/-
  The maximum of each row of a block of rows, as a kernel's vector reduction computes it, read at an index, at
  the extended reals. Stated for any extents.
-/
import Idealize.ShloMosaic.PureOps.Ideal
import Idealize.ShloMosaic.PureOps.Ideal.Laws
import Idealize.ShloMosaic.Lib.ValueIdx

noncomputable section

namespace Cert.LibVecRowMax

open Idealize.ShloMosaic Idealize.ShloMosaic.ValueIdx

/-- The maximum over the second axis of an `a × b` block, read at row `p`: the fold of `max`, from the value the
    accumulator's pattern denotes, over the row's `b` entries. -/
theorem multiReduction_max_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  -- a reduction over one axis folds over that axis's coordinates the source at the row index with the coordinate
  -- inserted; on the second axis of a rank-2 block the inserted index is (p, k)
  refine (Ideal.multiReduction_maximumf_single src acc h hφ hacc (ix1 p)).trans ?_
  show (Finset.univ : Finset (Fin b)).fold max (Ideal.ofBits φ acc) (src ∘ h.lift (ix1 p)) = _
  refine congrArg (fun f => Finset.fold max (Ideal.ofBits φ acc) f (Finset.univ : Finset (Fin b))) (funext fun k => congrArg src ?_)
  funext c
  match c with
  | ⟨0, _⟩ => exact Fin.ext rfl
  | ⟨1, _⟩ => exact Fin.ext rfl

end Cert.LibVecRowMax

end
-- ==== Proof.KernelCE.lean ====
/-
  The first kernel's output column: its row r is the label-smoothed cross entropy of row r of the logits with label
  r, in the kernel's form (`Spec.ceK`). The body's value at one row of its block is that function of the block's row
  and the row's label: the row maximum, the sum of the shifted exponentials, its logarithm, the row sum times the named
  reciprocal 1/32000, and the one-hot maximum that selects the label's logit (the fill constant is named −∞). Point t
  of the grid reads rows 32t … 32t + 31 of the logits and of the label column and writes rows 32t … 32t + 31 of the
  output column; the 8 blocks cover it.
-/
import proofs.«406563_j10934986736275_1_alg».proof.Proof.Gen.KernelIdeal.Frame
import proofs.«406563_j10934986736275_1_alg».proof.Proof.Spec
import proofs.«406563_j10934986736275_1_alg».proof.Proof.LibVecRows
import proofs.«406563_j10934986736275_1_alg».proof.Proof.LibVecRowMax
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx Idealize.SL.Sem
open Idealize.ShloMosaic.Pipeline (Dat Cfg Window)

/-- The named reciprocal is the rational 1/32000. -/
theorem inv_32000 : Named.named (F := Ideal) κ "inv_32000" (φ := .f32) 0x3803126F#32 = ((1 / 32000 : ℝ) : EReal) :=
  IdealRules.named_const.ideal_named_scalar _ _ _ _ rfl
/-- The named large negative is −∞. -/
theorem neg_big : Named.named (F := Ideal) κ "neg_big" (φ := .f32) 0xF149F2CA#32 = (⊥ : EReal) :=
  IdealRules.named_const.ideal_named_scalar _ _ _ _ rfl
/-- The pattern of −∞ denotes −∞. -/
theorem ofBits_neg_inf : Ideal.ofBits .f32 0xFF800000#32 = (⊥ : EReal) := by simp [Ideal.ofBits, Ideal.ieee]

/-! ## The body's value at a row

The stored value is assembled from four columns of the block: the row maximum, the row's log-sum-exp, the row's mean
(the sum times the named reciprocal) and the one-hot pick of the label's entry. Each is read at a row p. -/

section Payload
variable (x0 : Vec Ideal S32x32000 .f32) (x1 : Vec Ideal S32x1 .i32) (p : Fin 32)

/-- The maximum over the second axis read at row p, from an accumulator pattern that denotes −∞. -/
theorem rowmax_vec (y : Vec Ideal S32x32000 .f32) (acc : BitVec 32) (hacc : acc = FKind.maximumf.neutral .f32 (.inl rfl))
    (hbot : Ideal.ofBits .f32 acc = (⊥ : EReal)) :
    multiReduction (F := Ideal) .maximumf [1] S32 y acc reduces_S32x32000_S32 (.inl rfl) hacc (ix1 p)
      = (Finset.univ : Finset (Fin 32000)).fold max (⊥ : EReal) (fun k => y (ix2 p k)) := by
  have h1 := Cert.LibVecRowMax.multiReduction_max_rows_apply y acc reduces_S32x32000_S32 (.inl rfl) hacc p
  rw [hbot] at h1
  exact h1

/-- The same viewed as a column. -/
theorem rowmax_col (y : Vec Ideal S32x32000 .f32) (acc : BitVec 32) (hacc : acc = FKind.maximumf.neutral .f32 (.inl rfl))
    (hbot : Ideal.ofBits .f32 acc = (⊥ : EReal)) (z : Fin 1) :
    shapeCast S32x1 (multiReduction (F := Ideal) .maximumf [1] S32 y acc reduces_S32x32000_S32 (.inl rfl) hacc) shapeCasts_S32_S32x1 (ix2 p z)
      = (Finset.univ : Finset (Fin 32000)).fold max (⊥ : EReal) (fun k => y (ix2 p k)) := by
  have h0 := Cert.LibVecRows.shapeCast_col_apply (multiReduction (F := Ideal) .maximumf [1] S32 y acc reduces_S32x32000_S32 (.inl rfl) hacc) shapeCasts_S32_S32x1 p z
  exact h0.trans (rowmax_vec p y acc hacc hbot)

/-- The sum over the second axis viewed as a column, at row p. -/
theorem rowsum_col (y : Vec Ideal S32x32000 .f32) (acc : BitVec 32) (hacc : acc = FKind.add.neutral .f32 (.inl rfl)) (z : Fin 1) :
    shapeCast S32x1 (multiReduction (F := Ideal) .add [1] S32 y acc reduces_S32x32000_S32 (.inl rfl) hacc) shapeCasts_S32_S32x1 (ix2 p z)
      = ∑ k : Fin 32000, y (ix2 p k) := by
  have h0 := Cert.LibVecRows.shapeCast_col_apply (multiReduction (F := Ideal) .add [1] S32 y acc reduces_S32x32000_S32 (.inl rfl) hacc) shapeCasts_S32_S32x1 p z
  have h1 := Cert.LibVecRows.multiReduction_rows_apply y acc reduces_S32x32000_S32 (.inl rfl) hacc p
  exact h0.trans h1

/-- The column of row maxima. -/
def colM : FVec Ideal S32x1 .f32 :=
  shapeCast S32x1 (multiReduction (F := Ideal) .maximumf [1] S32 x0 0xFF800000#32 reduces_S32x32000_S32 (.inl rfl) rfl) shapeCasts_S32_S32x1
/-- The block of exponentials of the entries shifted by their row's maximum. -/
def blkE : FVec Ideal S32x32000 .f32 := exp (subf x0 (broadcastTo S32x32000 (colM x0) broadcasts_S32x1_S32x32000))
/-- The column of log-sum-exps. -/
def colL : FVec Ideal S32x1 .f32 :=
  addf (colM x0) (log (shapeCast S32x1 (multiReduction (F := Ideal) .add [1] S32 (blkE x0) 0x00000000#32 reduces_S32x32000_S32 (.inl rfl) rfl) shapeCasts_S32_S32x1))
/-- The column of row sums times the named reciprocal. -/
def colT : FVec Ideal S32x1 .f32 :=
  mulf (shapeCast S32x1 (multiReduction (F := Ideal) .add [1] S32 x0 0x00000000#32 reduces_S32x32000_S32 (.inl rfl) rfl) shapeCasts_S32_S32x1)
    (broadcast S32x1 (Named.named (F := Ideal) κ "inv_32000" (φ := .f32) 0x3803126F#32))
/-- The block with every entry off its row's label replaced by the named large negative. -/
def blkS : Vec Ideal S32x32000 .f32 :=
  select (cmpi .eq (iota .tc S32x32000 32 [1] iota_S32x32000_d1_w32) (broadcastTo S32x32000 (shapeCast S32x1 x1 shapeCasts_S32x1_S32x1) broadcasts_S32x1_S32x32000))
    x0 (broadcast S32x32000 (Named.named (F := Ideal) κ "neg_big" (φ := .f32) 0xF149F2CA#32))
/-- The column of picked entries. -/
def colP : FVec Ideal S32x1 .f32 :=
  shapeCast S32x1 (multiReduction (F := Ideal) .maximumf [1] S32 (blkS x0 x1) 0xFF800000#32 reduces_S32x32000_S32 (.inl rfl) rfl) shapeCasts_S32_S32x1

/-- The stored value from the four columns. -/
theorem pay_eq : k0_pay1 (F := Ideal) x0 x1
    = addf (mulf (broadcast S32x1 (Scalar.ofBits (F := Ideal) .f32 0x3F666666#32)) (subf (colL x0) (colP x0 x1)))
        (mulf (broadcast S32x1 (Scalar.ofBits (F := Ideal) .f32 0x3DCCCCCD#32)) (subf (colL x0) (colT x0))) := rfl

/-- The exponential and the logarithm at an index act on the entry. -/
theorem exp_apply {s : Shape} (a : FVec Ideal s .f32) (i : s.Idx) : exp a i = Ideal.exp (a i) := rfl
theorem log_apply {s : Shape} (a : FVec Ideal s .f32) (i : s.Idx) : log a i = Ideal.log (a i) := rfl

theorem colM_apply (z : Fin 1) : colM x0 (ix2 p z) = Cert.Spec.rowMax (fun k => x0 (ix2 p k)) :=
  rowmax_col p x0 0xFF800000#32 rfl ofBits_neg_inf z

theorem blkE_apply (k : Fin 32000) :
    blkE x0 (ix2 p k) = Ideal.exp (x0 (ix2 p k) - Cert.Spec.rowMax (fun k => x0 (ix2 p k))) := by
  unfold blkE
  rw [exp_apply, subf_apply, Cert.LibVecRows.broadcastTo_col_apply, colM_apply]

theorem colL_apply : colL x0 (ix2 p (0 : Fin 1)) = Cert.Spec.lse (fun k => x0 (ix2 p k)) := by
  unfold colL
  rw [addf_apply, log_apply, colM_apply, rowsum_col p (blkE x0) 0x00000000#32 rfl 0]
  unfold Cert.Spec.lse Cert.Spec.sumExp
  exact congrArg (fun s => Cert.Spec.rowMax (fun k => x0 (ix2 p k)) + Ideal.log s) (Finset.sum_congr rfl fun k _ => blkE_apply x0 p k)

theorem colT_apply : colT x0 (ix2 p (0 : Fin 1)) = (∑ k : Fin 32000, x0 (ix2 p k)) * ((1 / 32000 : ℝ) : EReal) := by
  unfold colT
  rw [mulf_apply, broadcast_apply, rowsum_col p x0 0x00000000#32 rfl 0, inv_32000]

/-- The label column broadcast along the row reads the row's label; the iota reads the column. -/
theorem onehot_apply (k : Fin 32000) :
    cmpi .eq (iota .tc S32x32000 32 [1] iota_S32x32000_d1_w32) (broadcastTo S32x32000 (shapeCast S32x1 x1 shapeCasts_S32x1_S32x1) broadcasts_S32x1_S32x32000) (ix2 p k)
      = BitVec.ofBool (BitVec.ofNat 32 k.val == x1 (ix2 p (0 : Fin 1))) := by
  show IntOp.cmpi .eq (iota .tc S32x32000 32 [1] iota_S32x32000_d1_w32 (ix2 p k)) (broadcastTo S32x32000 (shapeCast S32x1 x1 shapeCasts_S32x1_S32x1) broadcasts_S32x1_S32x32000 (ix2 p k)) = _
  rw [iota_single_apply, Cert.LibVecRows.broadcastTo_col_apply, shapeCast_self]
  rfl

theorem blkS_apply (k : Fin 32000) :
    blkS x0 x1 (ix2 p k) = if BitVec.ofNat 32 k.val = x1 (ix2 p (0 : Fin 1)) then x0 (ix2 p k) else ⊥ := by
  unfold blkS
  rw [select_apply, broadcast_apply, onehot_apply, neg_big]
  by_cases h : BitVec.ofNat 32 k.val = x1 (ix2 p (0 : Fin 1))
  · rw [if_pos h, show (BitVec.ofNat 32 k.val == x1 (ix2 p (0 : Fin 1))) = true from beq_iff_eq.mpr h]; exact select_one _ _
  · rw [if_neg h, show (BitVec.ofNat 32 k.val == x1 (ix2 p (0 : Fin 1))) = false from beq_eq_false_iff_ne.mpr h]; exact select_zero _ _

theorem colP_apply : colP x0 x1 (ix2 p (0 : Fin 1)) = Cert.Spec.pick (fun k => x0 (ix2 p k)) (x1 (ix2 p (0 : Fin 1))) := by
  unfold colP Cert.Spec.pick
  rw [rowmax_col p (blkS x0 x1) 0xFF800000#32 rfl ofBits_neg_inf 0]
  exact congrArg (fun f => Finset.fold max (⊥ : EReal) f (Finset.univ : Finset (Fin 32000))) (funext fun k => blkS_apply x0 x1 p k)

/-- The stored value at row p is the row's loss. -/
theorem pay_apply : k0_pay1 (F := Ideal) x0 x1 (ix2 p (0 : Fin 1))
    = Cert.Spec.ceK (fun k => x0 (ix2 p k)) (x1 (ix2 p (0 : Fin 1))) := by
  rw [pay_eq, addf_apply, mulf_apply, mulf_apply, subf_apply, subf_apply, broadcast_apply, broadcast_apply,
    colL_apply, colP_apply, colT_apply, Ideal.ofBits_def, Ideal.ofBits_def]
  unfold Cert.Spec.ceK Cert.Spec.c09 Cert.Spec.c01
  rfl

end Payload

/-! ## From the blocks to the array -/

variable (V : (c : Dev nD) → (b : Ref sig .tc) → Buf (Elt Ideal) ((c : Thread nD τ).loc b))

/-- The logits as the first region finds them. -/
abbrev xarr (c : Dev nD) : Vec Ideal S256x32000 .f32 := V c main_arg0
/-- The labels, as a column, as the first region finds them. -/
abbrev tarr (c : Dev nD) : Vec Ideal S256x1 .i32 := V c main_v0

/-- The whole output column: each row's loss. -/
def lossCol (c : Dev nD) : Vec Ideal S256x1 .f32 :=
  fun i => Cert.Spec.ceK (fun k => xarr V c (ix2 (i 0) k)) (tarr V c (ix2 (i 0) (0 : Fin 1)))

theorem hz2 : (![0, 0] : Fin 2 → Nat) = fun _ => 0 := funext fun a => by fin_cases a <;> rfl

/-- The three windows move together down the rows: block t of each is rows 32t … 32t + 31, all columns. -/
theorem idx_facts0 : ∀ t : Fin cfg0.N, win0_0.index t (0 : Fin 2) = win0_2.index t (0 : Fin 2)
    ∧ win0_0.index t (1 : Fin 2) = 0
    ∧ win0_1.index t (0 : Fin 2) = win0_2.index t (0 : Fin 2)
    ∧ win0_1.index t (1 : Fin 2) = 0
    ∧ win0_2.index t (1 : Fin 2) = 0
    ∧ win0_2.index t (0 : Fin 2) = t.val :=
  (by decide +kernel : ∀ t : Fin grid0.N, _)

/-- The body's value at a row of point t's blocks is the loss of the row of the arrays that the output block's row names. -/
theorem flushed_pt (c : Dev nD) (t : Fin cfg0.N) (j : S32x1.Idx) :
    k0_pay1 (F := Ideal) (iblk0 V c 0 t) (iblk0 V c 1 t) j = lossCol V c (((cfg0.win 2).blk t).view.emb j) := by
  obtain ⟨p, z, rfl⟩ : ∃ (p : Fin 32) (z : Fin 1), j = ix2 p z := ⟨j 0, j 1, eq_ix2 j⟩
  obtain rfl : z = 0 := Subsingleton.elim _ _
  obtain ⟨e0, e1, e2, e3, e4, e5⟩ := idx_facts0 t
  rw [pay_apply]
  unfold lossCol
  refine congrArg₂ Cert.Spec.ceK (funext fun k => ?_) ?_
  · show V c main_arg0 (((cfg0.win 0).blk t).view.emb (ix2 p k)) = V c main_arg0 (ix2 ((((cfg0.win 2).blk t).view.emb (ix2 p 0)) 0) k)
    congr 1
    funext a
    apply Fin.ext
    match a with
    | ⟨0, _⟩ => show win0_0.index t (0 : Fin 2) * 32 + 1 * p.val = win0_2.index t (0 : Fin 2) * 32 + 1 * p.val; rw [e0]
    | ⟨1, _⟩ => show win0_0.index t (1 : Fin 2) * 32000 + 1 * k.val = k.val; rw [e1]; omega
  · show V c main_v0 (((cfg0.win 1).blk t).view.emb (ix2 p 0)) = V c main_v0 (ix2 ((((cfg0.win 2).blk t).view.emb (ix2 p 0)) 0) (0 : Fin 1))
    congr 1
    funext a
    apply Fin.ext
    match a with
    | ⟨0, _⟩ => show win0_1.index t (0 : Fin 2) * 32 + 1 * p.val = win0_2.index t (0 : Fin 2) * 32 + 1 * p.val; rw [e2]
    | ⟨1, _⟩ => show win0_1.index t (1 : Fin 2) * 1 + 1 * 0 = 0; rw [e3]

/-- What point t writes back is block t of the loss column. -/
theorem flushed_eq (c : Dev nD) (t : Fin cfg0.N) :
    (dat0 (F := Ideal) V c).flushed 2 t = ((cfg0.win 2).blk t).view.read (Elt Ideal) (lossCol V c) := by
  show (cfg0.win 2).cut (grid0.coords t) ((dat0 (F := Ideal) V c).after 2 t) = _
  rw [after0_2]
  unfold out0_2
  rw [View.canon_unit_zero hz2]
  simp only [View.ld_unit_zero (S := S32x32000) hz2, View.ld_unit_zero (S := S32x1) hz2]
  funext j
  exact flushed_pt V c t j

/-- Every row of the output is in the block of the point its row index names. -/
theorem cover0 (i : S256x1.Idx) : ∃ t : Fin cfg0.N, (cfg0.win 2).flush t = true ∧ i ∈ ((cfg0.win 2).blk t).view.set := by
  have hi0 : (i 0).val < 256 := (i 0).isLt
  have hi1 : (i 1).val < 1 := (i 1).isLt
  let t : Fin cfg0.N := ⟨(i 0).val / 32, by show (i 0).val / 32 < 8; omega⟩
  obtain ⟨e0, e1, e2, e3, e4, e5⟩ := idx_facts0 t
  refine ⟨t, flush0_2 t, ?_⟩
  show i ∈ ((View.whole main_v11).slice (win0_2.rect t)).set
  rw [View.set_slice_whole, Rect.mem_set_unit]
  intro a
  match a with
  | ⟨0, _⟩ =>
    show win0_2.index t (0 : Fin 2) * 32 ≤ (i 0).val ∧ (i 0).val < win0_2.index t (0 : Fin 2) * 32 + 32
    rw [e5]; show (i 0).val / 32 * 32 ≤ (i 0).val ∧ (i 0).val < (i 0).val / 32 * 32 + 32; omega
  | ⟨1, _⟩ =>
    show win0_2.index t (1 : Fin 2) * 1 ≤ (i 1).val ∧ (i 1).val < win0_2.index t (1 : Fin 2) * 1 + 1
    rw [e4]; omega

/-- The output array after the run is the loss column. -/
theorem arr_eq (c : Dev nD) : (dat0 (F := Ideal) V c).arrAt 2 cfg0.N = lossCol V c :=
  (dat0 (F := Ideal) V c).arrAt_eq_of_cover 2 (lossCol V c) (fun t _ => flushed_eq V c t) (cover0)

theorem ce_arr (c : Dev nD) (r : Fin 256) :
    ((dat0 (F := Ideal) V c).arrAt 2 cfg0.N : Vec Ideal S256x1 .f32) (ix2 r (0 : Fin 1))
      = Cert.Spec.ceK (fun k => xarr V c (ix2 r k)) (tarr V c (ix2 r (0 : Fin 1))) := by
  rw [arr_eq]
  rfl

end Cert.KernelIdeal.Gen

end
-- ==== Proof.LibRowsRank3.lean ====
/-
  A kernel's vector operations on a block of shape [m, a, b] (m stacked matrices of a rows and b columns) read at an
  index, at the extended reals: the sum and the maximum of each row (a reduction over the last axis, the kernel's and the host's), a matrix of row
  values [m, a] viewed as a stack of columns [m, a, 1], and such a column stack broadcast along the rows to [m, a, b].
  Stated for any extents m, a, b.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.LibRowsRank3

open Idealize.ShloMosaic Idealize.ShloMosaic.ValueIdx

/-- The row index (u, p) with the column coordinate k inserted on the last axis is (u, p, k). -/
theorem lift_last {m a b : ℕ} (h : (⟨3, ![m, a, b]⟩ : Shape).Reduces [2] ⟨2, ![m, a]⟩) (u : Fin m) (p : Fin a) (k : Fin b) :
    h.lift (ix2 u p) k = ix3 u p k := by
  funext c
  match c with
  | ⟨0, _⟩ => exact Fin.ext rfl
  | ⟨1, _⟩ => exact Fin.ext rfl
  | ⟨2, _⟩ => exact Fin.ext rfl

/-- The sum over the last axis of an [m, a, b] block, read at row (u, p): the sum of the row's b entries. -/
theorem multiReduction_add_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (u : Fin m) (p : Fin a) :
    multiReduction .add [2] ⟨2, ![m, a]⟩ src acc h hφ hacc (ix2 u p) = ∑ k : Fin b, src (ix3 u p k) := by
  -- a reduction over one axis is the sum over that axis's coordinates of the source at the index with the coordinate inserted
  refine (Ideal.multiReduction_add_single src acc h hφ hacc (ix2 u p)).trans ?_
  show ∑ k : Fin b, src (h.lift (ix2 u p) k) = ∑ k : Fin b, src (ix3 u p k)
  exact Finset.sum_congr rfl fun k _ => congrArg src (lift_last h u p k)

/-- The maximum over the last axis of an [m, a, b] block, read at row (u, p): the fold of `max`, from the value the
    accumulator's pattern denotes, over the row's b entries. -/
theorem multiReduction_max_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.maximumf.neutral φ hφ)
    (u : Fin m) (p : Fin a) :
    multiReduction .maximumf [2] ⟨2, ![m, a]⟩ src acc h hφ hacc (ix2 u p)
      = (Finset.univ : Finset (Fin b)).fold max (Ideal.ofBits φ acc) (fun k => src (ix3 u p k)) := by
  refine (Ideal.multiReduction_maximumf_single src acc h hφ hacc (ix2 u p)).trans ?_
  show (Finset.univ : Finset (Fin b)).fold max (Ideal.ofBits φ acc) (src ∘ h.lift (ix2 u p)) = _
  exact congrArg (fun f => Finset.fold max (Ideal.ofBits φ acc) f (Finset.univ : Finset (Fin b)))
    (funext fun k => congrArg src (lift_last h u p k))

/-- The host's reduction with a maximum body over the last axis of an [m, a, b] array, read at row (u, p): the fold of
    `max`, from the initial value, over the row's b entries. -/
theorem hostReduce_max_last_apply {m a b : ℕ} {φ : FTy} (x : FVec Ideal ⟨3, ![m, a, b]⟩ φ) (init : FVec Ideal ⟨0, ![]⟩ φ)
    (h' : (⟨3, ![m, a, b]⟩ : Shape).ReducesTo [2] ⟨2, ![m, a]⟩) (h : (⟨3, ![m, a, b]⟩ : Shape).Reduces [2] ⟨2, ![m, a]⟩)
    (hu : 0 < (⟨0, ![]⟩ : Shape).numel) (u : Fin m) (p : Fin a) :
    Host.reduce FloatOps.maximumf x init h' hu (ix2 u p)
      = (Finset.univ : Finset (Fin b)).fold max (init (Shape.Idx.first hu)) (fun k => x (ix3 u p k)) := by
  rw [Host.reduce_eq_fold_single FloatOps.maximumf x init h' h hu]
  exact congrArg (fun f => Finset.fold max (init (Shape.Idx.first hu)) f (Finset.univ : Finset (Fin b)))
    (funext fun k => congrArg x (lift_last h u p k))

/-- A matrix stack [m, a] of row values viewed as a stack of columns [m, a, 1] reads the row's value. -/
theorem shapeCast_col_apply {m a : ℕ} {α : Type} (v : (⟨2, ![m, a]⟩ : Shape).Idx → α)
    (h : (⟨2, ![m, a]⟩ : Shape).ShapeCasts ⟨3, ![m, a, 1]⟩) (u : Fin m) (p : Fin a) (z : Fin 1) :
    shapeCast ⟨3, ![m, a, 1]⟩ v h (ix3 u p z) = v (ix2 u p) :=
  -- both indices have the row-major position u * a + p
  shapeCast_apply v h _ _ (by
    have hz : z.val = 0 := by omega
    rw [Shape.rowMajor_val_two, Shape.rowMajor_val_three]
    show u.val * a + p.val = (u.val * a + p.val) * 1 + z.val
    rw [hz, Nat.mul_one, Nat.add_zero])

/-- A stack of columns [m, a, 1] broadcast along the rows to [m, a, b] reads the row's column entry. -/
theorem broadcastTo_col_apply {m a b : ℕ} {α : Type} (v : (⟨3, ![m, a, 1]⟩ : Shape).Idx → α)
    (h : (⟨3, ![m, a, 1]⟩ : Shape).Broadcasts ⟨3, ![m, a, b]⟩) (u : Fin m) (p : Fin a) (k : Fin b) :
    broadcastTo ⟨3, ![m, a, b]⟩ v h (ix3 u p k) = v (ix3 u p (0 : Fin 1)) := by
  -- the two leading axes keep their coordinates (which are 0 anyway where the extent is 1); the unit axis reads 0
  refine broadcastTo_apply v h (ix3 u p k) (ix3 u p (0 : Fin 1)) fun ax => ?_
  match ax with
  | ⟨0, _⟩ =>
    show u.val = if m = 1 then 0 else u.val
    split
    · have := u.isLt; omega
    · rfl
  | ⟨1, _⟩ =>
    show p.val = if a = 1 then 0 else p.val
    split
    · have := p.isLt; omega
    · rfl
  | ⟨2, _⟩ => rfl

end Cert.LibRowsRank3

end
-- ==== Proof.KernelW.lean ====
/-
  The second kernel's output column: its row r is the maximum, over the 512 × 512 entries, of matrix r of the weights
  times the sign matrix. The body's value at one row of its block is the row-by-row maximum of the product (the sign
  block is viewed as a stack of one matrix and repeated for the eight matrices of the block); point t of the grid reads
  matrices 8t … 8t + 7 and the whole sign matrix and writes rows 8t … 8t + 7 of the column; the 32 blocks cover it.
-/
import proofs.«406563_j10934986736275_1_alg».proof.Proof.Gen.KernelIdeal.Frame
import proofs.«406563_j10934986736275_1_alg».proof.Proof.Spec
import proofs.«406563_j10934986736275_1_alg».proof.Proof.LibRowsRank3
import proofs.«406563_j10934986736275_1_alg».proof.Proof.LibVecRowMax
import proofs.«406563_j10934986736275_1_alg».proof.Proof.LibVecRows
import Idealize.ShloMosaic.Lib.ValueIdx
import Idealize.ShloMosaic.Lib.Pipeline.Value

noncomputable section

namespace Cert.KernelIdeal.Gen

open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The weight matrices as the second region finds them. -/
abbrev warr (c : Dev nD) : Vec Ideal S256x512x512 .f32 := V c main_arg1
/-- The sign matrix as the second region finds it. -/
abbrev sarr (c : Dev nD) : Vec Ideal S512x512 .f32 := V c main_v10

namespace KernelW

/-- The pattern of the two maxima's accumulator denotes the least extended real. -/
theorem negInf_bits : Ideal.ofBits .f32 0xFF800000#32 = (⊥ : EReal) := by simp [Ideal.ofBits, Ideal.ieee]

/-- The sign block viewed as a stack of one matrix and repeated eight times reads the block's own entry. -/
theorem sign_stack_apply (x1 : Vec Ideal S512x512 .f32) (u : Fin 8) (p q : Fin 512) :
    broadcastTo S8x512x512 (shapeCast S1x512x512 (shapeCast S512x512 x1 shapeCasts_S512x512_S512x512) shapeCasts_S512x512_S1x512x512)
      broadcasts_S1x512x512_S8x512x512 (ix3 u p q) = x1 (ix2 p q) := by
  refine (broadcastTo_apply _ broadcasts_S1x512x512_S8x512x512 (ix3 u p q) (ix3 (0 : Fin 1) p q) fun ax => ?_).trans ?_
  · match ax with
    | ⟨0, _⟩ => rfl
    | ⟨1, _⟩ => rfl
    | ⟨2, _⟩ => rfl
  · refine (shapeCast_apply _ shapeCasts_S512x512_S1x512x512 (ix3 (0 : Fin 1) p q) (ix2 p q) ?_).trans ?_
    · rw [Shape.rowMajor_val_two, Shape.rowMajor_val_three]
      show p.val * 512 + q.val = ((0 : Fin 1).val * 512 + p.val) * 512 + q.val
      simp
    · rw [shapeCast_self]

/-- The body's value at row u of its block: the maximum over the rows of matrix u of each row's maximum of the
    weight times the sign. -/
theorem pay1_apply (x0 : Vec Ideal S8x512x512 .f32) (x1 : Vec Ideal S512x512 .f32) (u : Fin 8) :
    k1_pay1 (F := Ideal) x0 x1 (ix2 u (0 : Fin 1))
      = Cert.Spec.wMax (fun p q => x0 (ix3 u p q)) (fun p q => x1 (ix2 p q)) := by
  unfold k1_pay1 Cert.Spec.wMax
  refine (Cert.LibVecRows.shapeCast_col_apply _ shapeCasts_S8_S8x1 u 0).trans ?_
  refine (Cert.LibVecRowMax.multiReduction_max_rows_apply (φ := .f32) _ (0xFF800000#32) reduces_S8x512_S8 _ _ u).trans ?_
  rw [negInf_bits]
  refine congrArg (fun f => Finset.fold max (⊥ : EReal) f (Finset.univ : Finset (Fin 512))) (funext fun p => ?_)
  refine (Cert.LibRowsRank3.multiReduction_max_last_apply (φ := .f32) _ (0xFF800000#32) reduces_S8x512x512_S8x512 _ _ u p).trans ?_
  rw [negInf_bits]
  refine congrArg (fun f => Finset.fold max (⊥ : EReal) f (Finset.univ : Finset (Fin 512))) (funext fun q => ?_)
  show x0 (ix3 u p q) * _ = _
  exact congrArg (fun z => x0 (ix3 u p q) * z) (sign_stack_apply x1 u p q)

/-- The same at any index of the column: its second coordinate can only be 0. -/
theorem pay1_idx (x0 : Vec Ideal S8x512x512 .f32) (x1 : Vec Ideal S512x512 .f32) (y : S8x1.Idx) :
    k1_pay1 (F := Ideal) x0 x1 y
      = Cert.Spec.wMax (fun p q => x0 (ix3 (y 0 : Fin 8) p q)) (fun p q => x1 (ix2 p q)) := by
  have hy : y = ix2 (y 0 : Fin 8) (0 : Fin 1) := by
    refine (eq_ix2 y).trans ?_
    exact congrArg (ix2 (y 0 : Fin 8)) (@Subsingleton.elim (Fin 1) _ (y 1) 0)
  exact (congrArg (k1_pay1 (F := Ideal) x0 x1) hy).trans (pay1_apply x0 x1 (y 0))

/-- The output column after the run: at row i the maximum of matrix i of the weights times the signs. -/
def Gw (c : Dev nD) : Vec Ideal S256x1 .f32 :=
  fun i => Cert.Spec.wMax (fun p q => warr V c (ix3 (i 0 : Fin 256) p q)) (fun p q => sarr V c (ix2 p q))

theorem hz2 : (![0, 0] : Fin 2 → Nat) = fun _ => 0 := funext fun a => by fin_cases a <;> rfl
theorem hz3 : (![0, 0, 0] : Fin 3 → Nat) = fun _ => 0 := funext fun a => by fin_cases a <;> rfl

/-- The index maps evaluated over the grid: at point t the weights' block is block t on the first axis and
    block 0 on the others, the sign block is block (0, 0), and the output's block is block t of its rows. -/
theorem idx_facts : ∀ t : Fin cfg1.N, win1_0.index t (0 : Fin 3) = t.val ∧ win1_0.index t (1 : Fin 3) = 0
    ∧ win1_0.index t (2 : Fin 3) = 0 ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The weights' block at point t holds matrices 8t … 8t + 7. -/
theorem iblk1_0_apply (c : Dev nD) (t : Fin cfg1.N) (x : S8x512x512.Idx) (k : S256x512x512.Idx)
    (h0 : (k 0).val = 8 * t.val + (x 0).val) (h1 : (k 1).val = (x 1).val) (h2 : (k 2).val = (x 2).val) :
    (iblk1 V c 0 t : Vec Ideal S8x512x512 .f32) x = warr V c k := by
  obtain ⟨e0, e1, e2, -, -, -, -⟩ := idx_facts t
  unfold iblk1
  rw [View.read_apply]
  show V c main_arg1 _ = V c main_arg1 k
  congr 1
  funext a
  apply Fin.ext
  match a with
  | ⟨0, _⟩ => show win1_0.index t (0 : Fin 3) * 8 + 1 * (x 0).val = (k 0).val; rw [e0, h0]; omega
  | ⟨1, _⟩ => show win1_0.index t (1 : Fin 3) * 512 + 1 * (x 1).val = (k 1).val; rw [e1, h1]; omega
  | ⟨2, _⟩ => show win1_0.index t (2 : Fin 3) * 512 + 1 * (x 2).val = (k 2).val; rw [e2, h2]; omega

/-- The sign block at every point is the whole sign matrix. -/
theorem iblk1_1_apply (c : Dev nD) (t : Fin cfg1.N) (x : S512x512.Idx) :
    (iblk1 V c 1 t : Vec Ideal S512x512 .f32) x = sarr V c x := by
  obtain ⟨-, -, -, e0, e1, -, -⟩ := idx_facts t
  unfold iblk1
  rw [View.read_apply]
  show V c main_v10 _ = V c main_v10 x
  congr 1
  funext a
  apply Fin.ext
  match a with
  | ⟨0, _⟩ => show win1_1.index t (0 : Fin 2) * 512 + 1 * (x 0).val = (x 0).val; rw [e0]; omega
  | ⟨1, _⟩ => show win1_1.index t (1 : Fin 2) * 512 + 1 * (x 1).val = (x 1).val; rw [e1]; omega

/-- What point t writes back is block t of the column. -/
theorem flushed_eq (c : Dev nD) (t : Fin cfg1.N) :
    (dat1 (F := Ideal) V c).flushed 2 t = ((cfg1.win 2).blk t).view.read (Elt Ideal) (Gw V c) := by
  show (cfg1.win 2).cut (grid1.coords t) ((dat1 (F := Ideal) V c).after 2 t) = _
  rw [after1_2]
  unfold out1_2
  rw [View.canon_unit_zero hz2]
  simp only [View.ld_unit_zero (S := S8x512x512) hz3, View.ld_unit_zero (S := S512x512) hz2]
  obtain ⟨-, -, -, -, -, e0, e1⟩ := idx_facts t
  funext j
  show k1_pay1 (F := Ideal) (iblk1 V c 0 t) (iblk1 V c 1 t) ((cfg1.win 2).xinj (grid1.coords t) j)
    = Gw V c (((cfg1.win 2).blk t).view.emb j)
  refine (pay1_idx _ _ _).trans ?_
  unfold Gw Cert.Spec.wMax
  refine congrArg (fun f => Finset.fold max (⊥ : EReal) f (Finset.univ : Finset (Fin 512))) (funext fun p => ?_)
  refine congrArg (fun f => Finset.fold max (⊥ : EReal) f (Finset.univ : Finset (Fin 512))) (funext fun q => ?_)
  refine congrArg₂ (fun a b : EReal => a * b) (iblk1_0_apply V c t _ _ ?_ rfl rfl) (iblk1_1_apply V c t _)
  show win1_2.index t (0 : Fin 2) * 8 + 1 * (j 0).val = 8 * t.val + (j 0).val
  rw [e0]; omega

/-- Every row of the column is in the block of the point its index divided by 8 names. -/
theorem cover_rows (i : S256x1.Idx) :
    ∃ t : Fin cfg1.N, (cfg1.win 2).flush t = true ∧ i ∈ ((cfg1.win 2).blk t).view.set := by
  have hN : grid1.N = 32 := by decide
  have hi0 : (i 0).val < 256 := (i 0).isLt
  have hi1 : (i 1).val < 1 := (i 1).isLt
  obtain ⟨t, ht⟩ : ∃ t : Fin cfg1.N, t.val = (i 0).val / 8 :=
    ⟨⟨(i 0).val / 8, by show _ < grid1.N; rw [hN]; omega⟩, rfl⟩
  obtain ⟨-, -, -, -, -, e0, e1⟩ := idx_facts t
  refine ⟨t, flush1_2 t, ?_⟩
  show i ∈ ((View.whole main_v14).slice (win1_2.rect t)).set
  rw [View.set_slice_whole, Rect.mem_set_unit]
  intro a
  match a with
  | ⟨0, _⟩ =>
    show win1_2.index t (0 : Fin 2) * 8 ≤ (i 0).val ∧ (i 0).val < win1_2.index t (0 : Fin 2) * 8 + 8
    rw [e0, ht]; omega
  | ⟨1, _⟩ =>
    show win1_2.index t (1 : Fin 2) * 1 ≤ (i 1).val ∧ (i 1).val < win1_2.index t (1 : Fin 2) * 1 + 1
    rw [e1]; omega

end KernelW

theorem w_arr (c : Dev nD) (r : Fin 256) :
    ((dat1 (F := Ideal) V c).arrAt 2 cfg1.N : Vec Ideal S256x1 .f32) (ix2 r (0 : Fin 1))
      = Cert.Spec.wMax (fun p q => warr V c (ix3 r p q)) (fun p q => sarr V c (ix2 p q)) := by
  -- every point writes its block of the column back, and the blocks cover the column
  have h := (dat1 (F := Ideal) V c).arrAt_eq_of_cover 2 (KernelW.Gw V c) (fun t _ => KernelW.flushed_eq V c t) KernelW.cover_rows
  exact congrFun h (ix2 r (0 : Fin 1))

end Cert.KernelIdeal.Gen

end
-- ==== Proof.LibHostRows.lean ====
/-
  Host layout operations and the host's row sum read at an index, for arrays of rows: a vector made a column, a
  scalar broadcast anywhere, a column broadcast along the rows, a vector made a row, a row broadcast down the
  rows, and the sum of a matrix's rows. Stated for any extents.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

/-- The host's sum over the second axis of an `a × b` array, read at row `r`: the initial value plus the sum of
    the row. -/
theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

/-- A vector of length `a` broadcast to an `a × 1` column reads its own entry. -/
theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

/-- A scalar broadcast to any shape reads the scalar. -/
theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

/-- An `a × 1` column broadcast to `a × b` reads the column's entry of the row. -/
theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

/-- A vector of length `b` broadcast to a `1 × b` row reads its own entry. -/
theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

/-- A `1 × b` row broadcast to `a × b` reads the row's entry of the column. -/
theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.RefLoss.lean ====
/-
  The reference's loss of one row, read stage by stage: the row maximum (a fold of max from −∞), the log-softmax
  entries (x_k − M) − log Σ_j exp(x_j − M), the gathered entry at the label's column (for a label in [0, 32000) the
  index normalisation and the clamp leave the label as it is, and the in-bounds mask is set), the mean of the row's
  log-probabilities, and the weighted sum of the two negated terms: `Spec.ceR`.
-/
import proofs.«406563_j10934986736275_1_alg».proof.Proof.RefReadGen
import proofs.«406563_j10934986736275_1_alg».proof.Proof.Spec
import proofs.«406563_j10934986736275_1_alg».proof.Proof.LibHostRows
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.ReadP Idealize.ShloMosaic Idealize.ShloMosaic.ValueIdx

/-! ## The row maximum -/

/-- The pattern of f32 −∞ denotes ⊥. -/
theorem ofBits_neg_inf : Ideal.ofBits .f32 0xFF800000#32 = (⊥ : EReal) := by simp [Ideal.ofBits, Ideal.ieee]

/-- The row index r with the column coordinate k inserted on the last axis is (r, k). -/
theorem lift_row {a b : ℕ} (h : (⟨2, ![a, b]⟩ : Shape).Reduces [1] ⟨1, ![a]⟩) (r : Fin a) (k : Fin b) :
    h.lift (ix1 r) k = ix2 r k := by
  funext c
  match c with
  | ⟨0, _⟩ => exact Fin.ext rfl
  | ⟨1, _⟩ => exact Fin.ext rfl

/-- The host's reduction with a maximum body over the second axis of an a × b array, read at row r: the fold of
    `max`, from the initial value, over the row's b entries. -/
theorem hostReduce_max_rows_apply {a b : ℕ} {φ : FTy} (x : FVec Ideal ⟨2, ![a, b]⟩ φ) (init : FVec Ideal ⟨0, ![]⟩ φ)
    (h' : (⟨2, ![a, b]⟩ : Shape).ReducesTo [1] ⟨1, ![a]⟩) (hu : 0 < (⟨0, ![]⟩ : Shape).numel) (r : Fin a) :
    Host.reduce FloatOps.maximumf x init h' hu (ix1 r)
      = (Finset.univ : Finset (Fin b)).fold max (init (Shape.Idx.first hu)) (fun k => x (ix2 r k)) := by
  have h : (⟨2, ![a, b]⟩ : Shape).Reduces [1] ⟨1, ![a]⟩ := ⟨h'.1, Nat.one_pos, h'.2⟩
  rw [Host.reduce_eq_fold_single FloatOps.maximumf x init h' h hu]
  exact congrArg (fun f => Finset.fold max (init (Shape.Idx.first hu)) f (Finset.univ : Finset (Fin b)))
    (funext fun k => congrArg x (lift_row h r k))

/-- The reference's row maximum (the reduction, then the maximum with a broadcast −∞) at row r is the row's maximum. -/
theorem rowmax_apply (x0 : (⟨S256x32000, .f32⟩ : BufTy).Contents (Elt Ideal)) (r : Fin 256) :
    val_main_call0_v2 (F := Ideal) x0 (ix1 r) = Cert.Spec.rowMax (fun k => x0 (ix2 r k)) := by
  rw [val_main_call0_v2_apply, val_main_call0_v1_apply, val_main_call0_cst_0_apply]
  unfold val_main_call0_v0
  rw [hostReduce_max_rows_apply, val_main_call0_cst_apply, Ideal.maximumf_def, Ideal.ofBits_def, ofBits_neg_inf]
  exact max_eq_right bot_le

/-! ## The log-probabilities -/

/-- A row's entry shifted by the row's maximum. -/
theorem shift_apply (x0 : (⟨S256x32000, .f32⟩ : BufTy).Contents (Elt Ideal)) (r : Fin 256) (k : Fin 32000) :
    val_main_call0_v5 (F := Ideal) x0 (ix2 r k) = x0 (ix2 r k) - Cert.Spec.rowMax (fun k => x0 (ix2 r k)) := by
  rw [val_main_call0_v5_apply, val_main_call0_v4_apply, val_main_call0_v3_apply, Ideal.subf_def]
  have e : idx_main_call0_v3 (idx_main_call0_v4 (ix2 r k)) = ix1 r := by
    funext a; match a with | ⟨0, _⟩ => rfl
  rw [e, rowmax_apply]

/-- The sum of the exponentials of a row's shifted entries (the host sum's initial value is 0). -/
theorem sumexp_apply (x0 : (⟨S256x32000, .f32⟩ : BufTy).Contents (Elt Ideal)) (r : Fin 256) :
    val_main_call0_v7 (F := Ideal) x0 (ix1 r) = Cert.Spec.sumExp (fun k => x0 (ix2 r k)) := by
  rw [val_main_call0_v7_apply, val_main_call0_cst_1_apply, Ideal.ofBits_def, Ideal.ofBits_zero_f32, zero_add]
  unfold Cert.Spec.sumExp
  refine Finset.sum_congr rfl fun k _ => ?_
  have e : idx_main_call0_v7 (ix1 r) k = ix2 r k := by
    funext a; match a with | ⟨0, _⟩ => rfl | ⟨1, _⟩ => rfl
  rw [e, val_main_call0_v6_apply, Ideal.hostUnary_exp_def, shift_apply]

/-- The log-softmax entry (r, k) is the row's log-probability at k. -/
theorem logp_apply (x0 : (⟨S256x32000, .f32⟩ : BufTy).Contents (Elt Ideal)) (r : Fin 256) (k : Fin 32000) :
    val_main_v0 (F := Ideal) x0 (ix2 r k) = Cert.Spec.logp (fun k => x0 (ix2 r k)) k := by
  rw [val_main_v0_apply, Ideal.subf_def, shift_apply, val_main_call0_v10_apply, val_main_call0_v9_apply, val_main_call0_v8_apply,
    Ideal.hostUnary_log_def]
  have e : idx_main_call0_v8 (idx_main_call0_v10 (ix2 r k)) = ix1 r := by
    funext a; match a with | ⟨0, _⟩ => rfl
  rw [e, sumexp_apply]
  rfl

/-! ## The label, normalised and tested -/

/-- A label in range is not negative as a signed word, so its normalisation (a negative label shifted by 32000) is the
    label itself. -/
theorem norm_apply (x2 : (⟨S256, .i32⟩ : BufTy).Contents (Elt Ideal)) (r : Fin 256) (ht : (x2 (ix1 r)).toNat < 32000) (z : Fin 1) :
    val_main_call1_v4 (F := Ideal) x2 (ix2 r z) = x2 (ix1 r) := by
  rw [val_main_call1_v4_apply, val_main_call1_v1_apply, val_main_v1_apply, val_main_call1_v0_apply, val_main_call1_c_apply]
  have e : idx_main_v1 (ix2 r z) = ix1 r := by
    funext a; match a with | ⟨0, _⟩ => rfl
  rw [e]
  have hlt : ¬ IntOp.cmpi .slt (x2 (ix1 r)) 0#32 = 1#1 := by
    rw [StableHlo.Predicate.slt_iff_toNat (by omega) (by decide)]
    exact Nat.not_lt_zero _
  rw [eq_zero_of_ne_one hlt, select_zero]

/-- The start index of row r is the row's label. -/
theorem startidx_apply (x2 : (⟨S256, .i32⟩ : BufTy).Contents (Elt Ideal)) (r : Fin 256) (ht : (x2 (ix1 r)).toNat < 32000) :
    val_main_call1_v5 (F := Ideal) x2 (ix3 r (0 : Fin 1) (0 : Fin 1)) = x2 (ix1 r) := by
  rw [val_main_call1_v5_apply]
  have e : idx_main_call1_v5 (ix3 r (0 : Fin 1) (0 : Fin 1)) = ix2 r (0 : Fin 1) := by
    funext a
    match a with
    | ⟨0, _⟩ => exact Fin.ext (by show ((r.val * 1 + 0) * 1 + 0) / 1 = r.val; omega)
    | ⟨1, _⟩ => rfl
  rw [e, norm_apply x2 r ht]

/-- The two range tests of a label in range both hold. -/
theorem inrange_apply (x2 : (⟨S256, .i32⟩ : BufTy).Contents (Elt Ideal)) (r : Fin 256) (ht : (x2 (ix1 r)).toNat < 32000) :
    val_main_call1_v11 (F := Ideal) x2 (ix3 r (0 : Fin 1) (0 : Fin 1)) = 1#1 := by
  rw [val_main_call1_v11_apply, val_main_call1_v7_apply, val_main_call1_v10_apply, startidx_apply x2 r ht,
    val_main_call1_v6_apply, val_main_call1_c_2_apply, val_main_call1_v9_apply, val_main_call1_v8_apply, val_main_call1_c_1_apply]
  have h1 : IntOp.cmpi .sge (x2 (ix1 r)) 0#32 = 1#1 :=
    (StableHlo.Predicate.sge_iff_toNat (by omega) (by decide)).2 (Nat.zero_le _)
  have h2 : IntOp.cmpi .sle (x2 (ix1 r)) 31999#32 = 1#1 :=
    (StableHlo.Predicate.sle_iff_toNat (by omega) (by decide)).2 (by show (x2 (ix1 r)).toNat ≤ 31999; omega)
  rw [h1, h2]
  rfl

/-- A left fold of "and" from 1 over bits that are all 1 is 1. -/
theorem foldl_andi_one {ι : Type} (l : List ι) (x : ι → BitVec 1) (hx : ∀ i ∈ l, x i = 1#1) :
    l.foldl (fun c i => IntOp.andi c (x i)) 1#1 = 1#1 := by
  induction l with
  | nil => rfl
  | cons a l ih =>
    rw [List.foldl_cons, hx a List.mem_cons_self]
    exact ih fun i hi => hx i (List.mem_cons_of_mem _ hi)

/-- The in-bounds mask of row r (the "and" over the unit axis of the two range tests) is 1 for a label in range. -/
theorem mask_apply (x2 : (⟨S256, .i32⟩ : BufTy).Contents (Elt Ideal)) (r : Fin 256) (ht : (x2 (ix1 r)).toNat < 32000) :
    val_main_call1_v12 (F := Ideal) x2 (ix2 r (0 : Fin 1)) = 1#1 := by
  unfold val_main_call1_v12
  rw [Host.reduce_eq_foldl]
  refine foldl_andi_one _ _ fun i hi => ?_
  -- an index that drops to (r, 0) is (r, 0, 0)
  have hd : reducesTo_S256x1x1_S256x1_d2.drop i = ix2 r (0 : Fin 1) := of_decide_eq_true (List.mem_filter.1 hi).2
  have h0 : i 0 = r := Fin.ext ((Shape.ReducesTo.drop_apply_val_of_eq reducesTo_S256x1x1_S256x1_d2 i 0 0).symm.trans
    (congrArg (fun j : S256x1.Idx => (j 0).val) hd))
  have hi3 : i = ix3 r (0 : Fin 1) (0 : Fin 1) := by
    have e1 : ∀ z : Fin 1, z = 0 := fun z => Subsingleton.elim _ _
    funext a
    match a with
    | ⟨0, _⟩ => exact h0
    | ⟨1, _⟩ => exact e1 (i 1)
    | ⟨2, _⟩ => exact e1 (i 2)
  rw [hi3]
  exact inrange_apply x2 r ht

/-! ## The gather -/

/-- The gather along the rows read at (r, 0): the operand's row r at the row's start index, read signed and clamped
    into [0, 31999]. Operand axis 0 is the batching axis (it reads the result's row coordinate), operand axis 1 the
    collapsed axis the start index names. -/
theorem gather_rows_apply {α : Type} (x : S256x32000.Idx → α) (idx : IVec S256x1x1 32) (r : Fin 256) :
    Host.gather gather_S256x32000_S256x1x1_S256x1_n_1_0_0_1_2_11 x idx (ix2 r (0 : Fin 1))
      = x (ix2 r ⟨min (idx (ix3 r (0 : Fin 1) (0 : Fin 1))).toInt.toNat (32000 - 1), by omega⟩) := by
  unfold Host.gather
  congr 1
  funext a
  refine Fin.ext ?_
  match a with
  | ⟨0, _⟩ =>
    show gather_S256x32000_S256x1x1_S256x1_n_1_0_0_1_2_11.start (ix2 r (0 : Fin 1)) idx 0
      + gather_S256x32000_S256x1x1_S256x1_n_1_0_0_1_2_11.batchCoord (ix2 r (0 : Fin 1)) 0
      + gather_S256x32000_S256x1x1_S256x1_n_1_0_0_1_2_11.offCoord (ix2 r (0 : Fin 1)) 0 = r.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S256x32000_S256x1x1_S256x1_n_1_0_0_1_2_11.operandBatchingDims from List.mem_singleton.mpr rfl)]
    rfl
  | ⟨1, _⟩ =>
    show gather_S256x32000_S256x1x1_S256x1_n_1_0_0_1_2_11.start (ix2 r (0 : Fin 1)) idx 1
      + gather_S256x32000_S256x1x1_S256x1_n_1_0_0_1_2_11.batchCoord (ix2 r (0 : Fin 1)) 1
      + gather_S256x32000_S256x1x1_S256x1_n_1_0_0_1_2_11.offCoord (ix2 r (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S256x32000_S256x1x1_S256x1_n_1_0_0_1_2_11.startIndexMap from List.mem_singleton.mpr rfl)]
    have hsi : gather_S256x32000_S256x1x1_S256x1_n_1_0_0_1_2_11.siIdx (ix2 r (0 : Fin 1))
        ⟨List.idxOf (1 : Fin 2) gather_S256x32000_S256x1x1_S256x1_n_1_0_0_1_2_11.startIndexMap,
          List.idxOf_lt_length_iff.2 (List.mem_singleton.mpr rfl)⟩ = ix3 r (0 : Fin 1) (0 : Fin 1) := by
      funext b; refine Fin.ext ?_
      match b with
      | ⟨0, _⟩ => rfl
      | ⟨1, _⟩ => rfl
      | ⟨2, _⟩ => rfl
    rw [hsi]
    rfl

/-! ## The gathered log-probability and the loss -/

/-- The clamped start index of a label in range is the column the label names. -/
theorem clamp_tgt (t : BitVec 32) (ht : t.toNat < 32000) (h : min t.toInt.toNat (32000 - 1) < 32000) :
    (⟨min t.toInt.toNat (32000 - 1), h⟩ : Fin 32000) = Cert.Spec.tgt t := by
  refine Fin.ext ?_
  show min t.toInt.toNat (32000 - 1) = t.toNat % 32000
  rw [StableHlo.Predicate.toInt_eq_toNat_of_lt (by omega), Int.toNat_natCast, Nat.mod_eq_of_lt ht]
  omega

/-- The reference's take-along-axis at (r, 0), for a label in range: the row's log-probability at the label's column. -/
theorem gathered_apply (x0 : (⟨S256x32000, .f32⟩ : BufTy).Contents (Elt Ideal)) (x2 : (⟨S256, .i32⟩ : BufTy).Contents (Elt Ideal))
    (r : Fin 256) (ht : (x2 (ix1 r)).toNat < 32000) :
    val_main_v2 (F := Ideal) x0 x2 (ix2 r (0 : Fin 1))
      = Cert.Spec.logp (fun k => x0 (ix2 r k)) (Cert.Spec.tgt (x2 (ix1 r))) := by
  rw [val_main_v2_apply, mask_apply x2 r ht, select_one]
  unfold val_main_call1_v13
  rw [gather_rows_apply, logp_apply]
  refine congrArg (Cert.Spec.logp fun k => x0 (ix2 r k)) ?_
  have e := startidx_apply x2 r ht
  rw [← clamp_tgt (x2 (ix1 r)) ht (by omega)]
  exact Fin.ext (congrArg (fun t : BitVec 32 => min t.toInt.toNat (32000 - 1)) e)

/-- The reference's loss of row r, for a label in range: `Spec.ceR` of that row of the logits and its label. -/
theorem loss_apply (x0 : (⟨S256x32000, .f32⟩ : BufTy).Contents (Elt Ideal)) (x2 : (⟨S256, .i32⟩ : BufTy).Contents (Elt Ideal)) (r : Fin 256)
    (ht : (x2 (ix1 r)).toNat < 32000) :
    val_main_v13 (F := Ideal) x0 x2 (ix1 r) = Cert.Spec.ceR (fun k => x0 (ix2 r k)) (x2 (ix1 r)) := by
  -- the label's term: the weight times the negated gathered log-probability
  have hA : val_main_v10 (F := Ideal) x0 x2 (ix1 r)
      = Cert.Spec.c09 * (-(Cert.Spec.logp (fun k => x0 (ix2 r k)) (Cert.Spec.tgt (x2 (ix1 r))))) := by
    rw [val_main_v10_apply, val_main_v9_apply, val_main_cst_1_apply, val_main_v4_apply, val_main_v3_apply, Ideal.mulf_def,
      Ideal.hostNegf_def, Ideal.negf_def, Ideal.ofBits_def]
    have e : idx_main_v3 (ix1 r) = ix2 r (0 : Fin 1) := by
      funext a
      match a with
      | ⟨0, _⟩ => exact Fin.ext (Nat.div_one _)
      | ⟨1, _⟩ => rfl
    rw [e, gathered_apply x0 x2 r ht]
    rfl
  -- the smoothing term: the weight times the negated mean of the row's log-probabilities
  have hB : val_main_v12 (F := Ideal) x0 (ix1 r)
      = Cert.Spec.c01 * (-(Ideal.div (∑ k : Fin 32000, Cert.Spec.logp (fun k => x0 (ix2 r k)) k) (Ideal.ofBits .f32 0x46FA0000#32))) := by
    rw [val_main_v12_apply, val_main_v11_apply, val_main_cst_2_apply, val_main_v8_apply, val_main_v7_apply, val_main_v6_apply,
      val_main_cst_0_apply, val_main_v5_apply, val_main_cst_apply, Ideal.mulf_def, Ideal.hostNegf_def, Ideal.negf_def,
      Ideal.hostDivf_def, Ideal.ofBits_def, Ideal.ofBits_def, Ideal.ofBits_def, Ideal.ofBits_zero_f32, zero_add]
    have e : ∀ k : Fin 32000, idx_main_v5 (ix1 r) k = ix2 r k := fun k => by
      funext a; match a with | ⟨0, _⟩ => rfl | ⟨1, _⟩ => rfl
    rw [Finset.sum_congr rfl fun k _ => (congrArg (val_main_v0 (F := Ideal) x0) (e k)).trans (logp_apply x0 r k)]
    rfl
  rw [val_main_v13_apply, Ideal.addf_def, hA, hB]
  rfl

end Cert.ReferenceIdeal.RefValue

end
-- ==== Proof.RefWeight.lean ====
/-
  The reference's weight term and its last stages. The maximum over both axes of matrix r of w·s is the maximum over
  the rows of each row's maximum (`Spec.wMax`): both are the least upper bound of the same 512 × 512 entries above −∞.
  The result is the mean of the 256 row losses plus the pattern of 0.1 times the mean of the 256 maxima
  (`Spec.total`), the sums over the rank-1 index type taken over Fin 256.
-/
import proofs.«406563_j10934986736275_1_alg».proof.Proof.RefReadGen
import proofs.«406563_j10934986736275_1_alg».proof.Proof.Spec
import proofs.«406563_j10934986736275_1_alg».proof.Proof.LibHostRows
import proofs.«406563_j10934986736275_1_alg».proof.Proof.LibRowsRank3
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.ReadP Idealize.ShloMosaic Idealize.ShloMosaic.ValueIdx

namespace Weight

/-- The indices of an `a × b × c` array that a reduction over its last two axes sends to row `r` are those whose
    first coordinate is `r`. -/
theorem drop_eq_ix1_iff {a b c : ℕ} (h : (⟨3, ![a, b, c]⟩ : Shape).ReducesTo [1, 2] ⟨1, ![a]⟩) (r : Fin a)
    (i : (⟨3, ![a, b, c]⟩ : Shape).Idx) : h.drop i = ix1 r ↔ i 0 = r := by
  have hv : (h.drop i 0 : Nat) = i 0 := Shape.ReducesTo.drop_apply_val h i 0
  constructor
  · intro e; rw [e] at hv; exact Fin.ext hv.symm
  · intro e; funext d; have hd : d = 0 := Subsingleton.elim _ _; subst hd; exact Fin.ext (by rw [hv, e]; rfl)

/-- The maximum, from −∞, over the entries of matrix `r` of an `a × b × c` array is the maximum over its rows of
    each row's maximum. -/
theorem fold_max_drop {a b c : ℕ} (h : (⟨3, ![a, b, c]⟩ : Shape).ReducesTo [1, 2] ⟨1, ![a]⟩)
    (y : (⟨3, ![a, b, c]⟩ : Shape).Idx → EReal) (r : Fin a) :
    (Finset.univ.filter fun i : (⟨3, ![a, b, c]⟩ : Shape).Idx => h.drop i = ix1 r).fold max ⊥ y
      = (Finset.univ : Finset (Fin b)).fold max ⊥ (fun p => (Finset.univ : Finset (Fin c)).fold max ⊥ (fun q => y (ix3 r p q))) := by
  apply le_antisymm
  · -- every entry of matrix r is below its row's maximum, which is below the maximum of the rows' maxima
    rw [Finset.fold_max_le]
    refine ⟨bot_le, fun i hi => ?_⟩
    rw [Finset.mem_filter] at hi
    have h0 : i 0 = r := (drop_eq_ix1_iff h r i).1 hi.2
    have ei : i = ix3 r (i 1) (i 2) := by rw [← h0]; exact eq_ix3 i
    rw [ei]
    exact (Finset.le_fold_max _).2 (Or.inr ⟨i 1, Finset.mem_univ _, (Finset.le_fold_max _).2 (Or.inr ⟨i 2, Finset.mem_univ _, le_rfl⟩)⟩)
  · -- every entry (r, p, q) is one of the entries the reduction folds over
    rw [Finset.fold_max_le]
    refine ⟨bot_le, fun p _ => ?_⟩
    rw [Finset.fold_max_le]
    refine ⟨bot_le, fun q _ => ?_⟩
    refine (Finset.le_fold_max _).2 (Or.inr ⟨ix3 r p q, ?_, le_rfl⟩)
    rw [Finset.mem_filter]
    exact ⟨Finset.mem_univ _, (drop_eq_ix1_iff h r _).2 rfl⟩

/-- The sign matrix broadcast along the batch reads the matrix at the last two coordinates. -/
theorem v27_apply (r : Fin 256) (p q : Fin 512) :
    val_main_v27 (F := Ideal) (ix3 r p q) = val_main_v25 (F := Ideal) (ix2 p q) := by
  rw [val_main_v27_apply, val_main_v26_apply]
  refine congrArg (val_main_v25 (F := Ideal)) ?_
  funext d
  match d with
  | ⟨0, _⟩ => rfl
  | ⟨1, _⟩ => rfl

/-- A rank-1 index set is its coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

end Weight

/-- The reference's maximum of matrix r of w·s, s the sign matrix the reference builds: `Spec.wMax`. -/
theorem wmax_apply (x1 : (⟨S256x512x512, .f32⟩ : BufTy).Contents (Elt Ideal)) (r : Fin 256) :
    val_main_v29 (F := Ideal) x1 (ix1 r)
      = Cert.Spec.wMax (fun p q => x1 (ix3 r p q)) (fun p q => val_main_v25 (F := Ideal) (ix2 p q)) := by
  -- the reduction's initial value is the pattern of −∞
  have e0 : val_main_cst_7 (F := Ideal) (Shape.Idx.first h_S_) = (⊥ : EReal) := by
    rw [val_main_cst_7_apply]; simp [Ideal.ofBits, Ideal.ieee]
  -- the reduction over the last two axes is the fold of max over the entries of matrix r, which is the nested fold
  unfold val_main_v29
  rw [Host.reduce_eq_fold, e0]
  refine (Weight.fold_max_drop reducesTo_S256x512x512_S256_d1_2 (val_main_v28 (F := Ideal) x1) r).trans ?_
  -- entry (r, p, q) of the product is w(r, p, q) · s(p, q)
  unfold Cert.Spec.wMax
  refine congrArg (fun f => Finset.fold max (⊥ : EReal) f (Finset.univ : Finset (Fin 512))) (funext fun p => ?_)
  refine congrArg (fun f => Finset.fold max (⊥ : EReal) f (Finset.univ : Finset (Fin 512))) (funext fun q => ?_)
  rw [val_main_v28_apply, Ideal.mulf_def, Weight.v27_apply]

/-- The reference's result: `Spec.total` of its 256 row losses and its 256 maxima. -/
theorem total_apply (x0 : (⟨S256x32000, .f32⟩ : BufTy).Contents (Elt Ideal)) (x1 : (⟨S256x512x512, .f32⟩ : BufTy).Contents (Elt Ideal))
    (x2 : (⟨S256, .i32⟩ : BufTy).Contents (Elt Ideal)) :
    val_main_v33 (F := Ideal) x0 x1 x2 ix0
      = Cert.Spec.total (fun r => val_main_v13 (F := Ideal) x0 x2 (ix1 r)) (fun r => val_main_v29 (F := Ideal) x1 (ix1 r)) := by
  -- the last stages: (0 + Σ losses) / 256 + ((0 + Σ maxima) / 256) · 0.1, the sums over the rank-1 indices
  rw [val_main_v33_apply, val_main_v15_apply, val_main_v14_apply, val_main_v32_apply, val_main_v31_apply, val_main_v30_apply,
    val_main_cst_3_apply, val_main_cst_4_apply, val_main_cst_8_apply, val_main_cst_9_apply, val_main_cst_10_apply]
  simp only [Ideal.addf_def, Ideal.mulf_def, Ideal.hostDivf_def, Ideal.ofBits_def, Ideal.ofBits_zero_f32, zero_add]
  rw [Weight.sum_idx1, Weight.sum_idx1]
  rfl

end Cert.ReferenceIdeal.RefValue

end
-- ==== Proof.Algebra.lean ====
/-
  The arithmetic that joins the two forms of a row's loss. For a row of real numbers a with maximum μ, S = Σ_k exp(a_k − μ)
  > 0 and L = log S: (μ + L) − a_t = −((a_t − μ) − L), and (μ + L) − (Σ_k a_k)·(1/32000) = −(Σ_k ((a_k − μ) − L))·(1/32000);
  for a label in range the one-hot maximum reads the label's entry. Nothing about μ is used beyond its being real, and
  the two weights are never evaluated.
-/
import proofs.«406563_j10934986736275_1_alg».proof.Proof.Spec
import Mathlib.Data.Finset.Fold

noncomputable section

namespace Cert.Spec

open Idealize.ShloMosaic

/-- The pattern 0x46FA0000 denotes the real 32000. -/
theorem ofBits_32000 : Ideal.ofBits .f32 0x46FA0000#32 = ((32000 : ℝ) : EReal) := by
  simp [Ideal.ofBits, Ideal.ieee, -EReal.coe_mul]; norm_num

/-- The coercion of a finite sum of reals is the sum of the coercions. -/
theorem coe_sum {ι : Type} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A maximum from −∞ over finitely many reals is −∞ or a real. -/
theorem fold_max_bot_or_real (s : Finset (Fin 32000)) (a : Fin 32000 → ℝ) :
    s.fold max ⊥ (fun k => (a k : EReal)) = ⊥ ∨ ∃ μ : ℝ, s.fold max ⊥ (fun k => (a k : EReal)) = (μ : EReal) := by
  classical
  induction s using Finset.induction_on with
  | empty => left; simp
  | insert b s hb ih =>
    right
    rw [Finset.fold_insert hb]
    rcases ih with h | ⟨μ, h⟩
    · exact ⟨a b, by rw [h, max_bot_right]⟩
    · exact ⟨max (a b) μ, by rw [h]; exact (EReal.coe_strictMono.monotone.map_max).symm⟩

/-- The maximum of a row of reals is a real. -/
theorem rowMax_real (a : Fin 32000 → ℝ) : ∃ μ : ℝ, rowMax (fun k => (a k : EReal)) = (μ : EReal) := by
  rcases fold_max_bot_or_real Finset.univ a with h | h
  · exfalso
    have h0 : ((a 0 : ℝ) : EReal) ≤ (Finset.univ : Finset (Fin 32000)).fold max ⊥ (fun k => (a k : EReal)) :=
      (Finset.le_fold_max _).mpr (Or.inr ⟨0, Finset.mem_univ _, le_refl _⟩)
    rw [h] at h0
    exact EReal.coe_ne_bot _ (le_bot_iff.mp h0)
  · exact h

/-- The sum of the shifted exponentials of a row of reals is the coercion of the real sum. -/
theorem sumExp_real (a : Fin 32000 → ℝ) (μ : ℝ) (hμ : rowMax (fun k => (a k : EReal)) = (μ : EReal)) :
    sumExp (fun k => (a k : EReal)) = ((∑ k : Fin 32000, Real.exp (a k - μ) : ℝ) : EReal) := by
  rw [sumExp, hμ, coe_sum]
  refine Finset.sum_congr rfl (fun k _ => ?_)
  rw [← EReal.coe_sub, Ideal.exp_coe]

/-- The one-hot maximum reads the label's entry. -/
theorem pick_eq (row : Fin 32000 → EReal) (t : BitVec 32) (ht : t.toNat < 32000) : pick row t = row (tgt t) := by
  have htgt : tgt t = ⟨t.toNat, ht⟩ := by
    apply Fin.ext
    show t.toNat % 32000 = t.toNat
    exact Nat.mod_eq_of_lt ht
  have hiff : ∀ k : Fin 32000, BitVec.ofNat 32 k.val = t ↔ k = tgt t := by
    intro k
    rw [htgt]
    constructor
    · intro h
      apply Fin.ext
      have := congrArg BitVec.toNat h
      rw [BitVec.toNat_ofNat, Nat.mod_eq_of_lt (by omega)] at this
      exact this
    · intro h
      rw [h]
      apply BitVec.eq_of_toNat_eq
      rw [BitVec.toNat_ofNat]
      exact Nat.mod_eq_of_lt (by omega)
  apply le_antisymm
  · refine (Finset.fold_max_le _).mpr ⟨bot_le, fun k _ => ?_⟩
    by_cases h : BitVec.ofNat 32 k.val = t
    · rw [if_pos h, (hiff k).mp h]
    · rw [if_neg h]; exact bot_le
  · refine (Finset.le_fold_max _).mpr (Or.inr ⟨tgt t, Finset.mem_univ _, ?_⟩)
    rw [if_pos ((hiff (tgt t)).mpr rfl)]

/-- Over the reals: the smoothing term of the kernel is that of the reference. -/
theorem smooth_real (a : Fin 32000 → ℝ) (μ L : ℝ) :
    (μ + L) - (∑ k : Fin 32000, a k) * (1 / 32000) = -((∑ k : Fin 32000, ((a k - μ) - L)) * (1 / 32000)) := by
  have h : (∑ k : Fin 32000, ((a k - μ) - L)) = (∑ k : Fin 32000, a k) - 32000 * μ - 32000 * L := by
    simp only [Finset.sum_sub_distrib, Finset.sum_const, Finset.card_univ, Fintype.card_fin, nsmul_eq_mul,
      Nat.cast_ofNat]
  rw [h]; ring

theorem ceK_eq_ceR (row : Fin 32000 → EReal) (t : BitVec 32) (hfin : ∀ k, ∃ a : ℝ, row k = (a : EReal))
    (ht : t.toNat < 32000) : ceK row t = ceR row t := by
  -- the row is the coercion of a row of reals a
  choose a ha using hfin
  obtain rfl : row = fun k => (a k : EReal) := funext ha
  -- its maximum is a real μ, the sum of the shifted exponentials a positive real S, its logarithm a real L
  obtain ⟨μ, hμ⟩ := rowMax_real a
  have hS := sumExp_real a μ hμ
  have hSpos : 0 < ∑ k : Fin 32000, Real.exp (a k - μ) :=
    Finset.sum_pos (fun k _ => Real.exp_pos _) Finset.univ_nonempty
  generalize (∑ k : Fin 32000, Real.exp (a k - μ)) = S at hS hSpos
  have hlog : Ideal.log (sumExp (fun k => (a k : EReal))) = ((Real.log S : ℝ) : EReal) := by
    rw [hS, Ideal.log_coe, if_neg (not_le.mpr hSpos)]
  generalize Real.log S = L at hlog
  have hlse : lse (fun k => (a k : EReal)) = ((μ + L : ℝ) : EReal) := by
    rw [lse, hμ, hlog, EReal.coe_add]
  have hlogp : ∀ k, logp (fun k => (a k : EReal)) k = (((a k - μ) - L : ℝ) : EReal) := by
    intro k
    rw [logp, hμ, hlog, EReal.coe_sub, EReal.coe_sub]
  -- the label's term: (μ + L) − a_t = −((a_t − μ) − L)
  have hnll : lse (fun k => (a k : EReal)) - pick (fun k => (a k : EReal)) t
      = -(logp (fun k => (a k : EReal)) (tgt t)) := by
    rw [hlse, pick_eq _ t ht, hlogp, ← EReal.coe_sub, ← EReal.coe_neg]
    exact congrArg Real.toEReal (by ring)
  -- the smoothing term: (μ + L) − (Σ a_k)/32000 = −(Σ_k ((a_k − μ) − L))/32000
  have hsum : (∑ k : Fin 32000, logp (fun k => (a k : EReal)) k)
      = ((∑ k : Fin 32000, ((a k - μ) - L) : ℝ) : EReal) := by
    rw [coe_sum]; exact Finset.sum_congr rfl (fun k _ => hlogp k)
  have hsm : lse (fun k => (a k : EReal)) - (∑ k : Fin 32000, (a k : EReal)) * ((1 / 32000 : ℝ) : EReal)
      = -(Ideal.div (∑ k : Fin 32000, logp (fun k => (a k : EReal)) k) (Ideal.ofBits .f32 0x46FA0000#32)) := by
    rw [hlse, ofBits_32000, Ideal.div_coe (by norm_num : (32000 : ℝ) ≠ 0), hsum, ← coe_sum, ← EReal.coe_mul,
      ← EReal.coe_mul, ← EReal.coe_sub, ← EReal.coe_neg, smooth_real]
  rw [ceK, ceR, hnll, hsm]

end Cert.Spec

end
-- ==== Proof.PreDecode.lean ====
/-
  The precondition read back. It says: every logit and every weight is finite, and every label lies in
  [0, 32000). Read at an index: each logit is a real number, and each label, as an unsigned word, is below 32000.
  (The weights' finiteness is not needed: the weight term is a maximum, which needs no arithmetic.)
-/
import proofs.«406563_j10934986736275_1_alg».proof.Pre_finite_inputs
import Idealize.ShloMosaic.PureOps.Ideal
import Idealize.ShloMosaic.Lib.ValueIdx
import Idealize.ShloMosaic.Lib.ReduceAll
import Idealize.ShloMosaic.Lib.StableHlo.Predicate

noncomputable section

namespace Cert.Pre_finite_inputs

open Idealize.ShloMosaic Idealize.ShloMosaic.ValueIdx

variable [Facts]
open Facts

instance : Subsingleton S_.Idx := ⟨fun a b => funext fun d => d.elim0⟩

/-- An extended real whose absolute value is below +∞ is a real. -/
theorem real_of_abs_lt (x : EReal) (h : FloatOps.cmpf (F := Ideal) .olt (FloatOps.hostAbsf (F := Ideal) (φ := .f32) x) (Ideal.ofBits .f32 0x7F800000#32) = 1#1) :
    ∃ a : ℝ, x = (a : EReal) := by
  have h' : Ideal.cmp .olt (max x (-x)) (Ideal.ofBits .f32 0x7F800000#32) = 1#1 := h
  induction x using EReal.rec with
  | bot => exfalso; revert h'; simp [Ideal.cmp, Ideal.ofBits, Ideal.ieee]
  | coe a => exact ⟨a, rfl⟩
  | top => exfalso; revert h'; simp [Ideal.cmp, Ideal.ofBits, Ideal.ieee]

/-- A word that is at least 0 and below 32000 as a signed word is below 32000 as an unsigned one. -/
theorem toNat_lt_of_signed (t : BitVec 32) (h0 : IntOp.cmpi .sge t 0#32 = 1#1) (h1 : IntOp.cmpi .slt t 32000#32 = 1#1) :
    t.toNat < 32000 := by
  have hm : t.toNat < 2 ^ 31 := by
    have hs : (0#32 : BitVec 32).sle t = true := (StableHlo.Predicate.ofBool_eq_one_iff _).mp h0
    have hi : (0 : Int) ≤ t.toInt := by simpa [BitVec.sle] using hs
    have hlt := t.isLt
    rw [BitVec.toInt_eq_toNat_cond] at hi
    split at hi <;> omega
  exact (StableHlo.Predicate.slt_iff_toNat hm (by decide)).mp h1

/-- The precondition, read at an index. -/
theorem decode (x0 : FVec Ideal S256x32000 .f32) (x1 : FVec Ideal S256x512x512 .f32) (x2 : IVec S256 32)
    (h : fn (F := Ideal) x0 x1 x2 = fun _ => 1#1) :
    (∀ i, ∃ a : ℝ, x0 i = (a : EReal)) ∧ (∀ i, (x2 i).toNat < 32000) := by
  have h' := congrFun h ix0
  dsimp only [fn, fn_part1] at h'
  obtain ⟨h12, h15⟩ := IntOp.andi_eq_one.mp h'
  obtain ⟨h8, h11⟩ := IntOp.andi_eq_one.mp h12
  obtain ⟨h3, -⟩ := IntOp.andi_eq_one.mp h8
  refine ⟨fun i => ?_, fun i => ?_⟩
  · exact real_of_abs_lt (x0 i) (Host.reduce_andi_all _ _ _ _ _ h3 i)
  · exact toNat_lt_of_signed (x2 i) (Host.reduce_andi_all _ _ _ _ _ h11 i) (Host.reduce_andi_all _ _ _ _ _ h15 i)

end Cert.Pre_finite_inputs

end
-- ==== Proof.lean ====
/-
  Cross entropy with label smoothing over 256 rows of 32000 logits, plus a tenth of the mean, over 256 matrices of
  512 × 512 weights, of the maximum of each matrix with its diagonal negated: a kernel of two pallas_calls against
  its jnp reference, equal as extended reals for finite logits and labels in [0, 32000).

  The first call computes, for each row, 0.9·(lse − x_t) + 0.1·(lse − (Σ_k x_k)·(1/32000)), lse the row's
  log-sum-exp, where the label's logit x_t is selected by a maximum over "x_k where k = t, −∞ elsewhere" (the
  kernel's fill constant is named −∞) and the mean's reciprocal is named 1/32000; the reference takes the row's
  log-probabilities (x_k − M) − log S, gathers the label's, and averages them. For a row of real numbers both are
  the same real: (M + log S) − x_t = −((x_t − M) − log S), and (M + log S) − (Σ_k x_k)/32000 = −(Σ_k ((x_k − M) −
  log S))/32000 (`Spec.ceK_eq_ceR`); the label in range is what makes the one-hot maximum read x_t and the
  reference's gather read the same column. The second call takes each matrix's maximum of w·s row by row and
  then over the rows, the reference over both axes at once: the same maximum, with no arithmetic. Both programs
  then take the two means of 256 values and combine them the same way (`Spec.total`).

  The frames of the two kernel programs are the generated ones; the reference's frame is its run with the result
  dropped. The kernel's run with its result named is the generated frame's call of the launch theorem with one
  more reading of the last thread state; the reference's run and its stages read at an index are the generated
  modules (in patched copies). What is proved by hand: each call's output column as a function of the whole input
  arrays (from the blocks the grid points write back), the host operations around the calls, the reference's
  stages at a row, the precondition read back, and the real arithmetic that joins the two sides.
-/
import proofs.«406563_j10934986736275_1_alg».proof.Defs
import proofs.«406563_j10934986736275_1_alg».proof.Proof.Gen.Kernel
import proofs.«406563_j10934986736275_1_alg».proof.Proof.Gen.Kernel.Frame
import proofs.«406563_j10934986736275_1_alg».proof.Proof.Gen.KernelIdeal
import proofs.«406563_j10934986736275_1_alg».proof.Proof.Gen.KernelIdeal.Frame
import proofs.«406563_j10934986736275_1_alg».proof.Proof.Gen.ReferenceIdeal
import proofs.«406563_j10934986736275_1_alg».proof.Proof.Gen.Pre_finite_inputs
import proofs.«406563_j10934986736275_1_alg».proof.Proof.KernelRun
import proofs.«406563_j10934986736275_1_alg».proof.Proof.KernelHost
import proofs.«406563_j10934986736275_1_alg».proof.Proof.KernelCE
import proofs.«406563_j10934986736275_1_alg».proof.Proof.KernelW
import proofs.«406563_j10934986736275_1_alg».proof.Proof.RefRun
import proofs.«406563_j10934986736275_1_alg».proof.Proof.RefReadGen
import proofs.«406563_j10934986736275_1_alg».proof.Proof.RefLoss
import proofs.«406563_j10934986736275_1_alg».proof.Proof.RefWeight
import proofs.«406563_j10934986736275_1_alg».proof.Proof.Algebra
import proofs.«406563_j10934986736275_1_alg».proof.Proof.PreDecode
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The two named constants: the table gives the reciprocal the rational 1/32000 and the fill −∞. -/
theorem preserves : Cert.preserves_Kernel_KernelIdeal :=
  ⟨IdealRules.named_const.statement Cert.KernelIdeal.κ "inv_32000" .f32 0x3803126F#32 ((1 / 32000 : ℝ) : EReal) rfl,
   IdealRules.named_const.statement Cert.KernelIdeal.κ "neg_big" .f32 0xF149F2CA#32 ⊥ rfl⟩

/-- The sign matrix the kernel's host side builds is the one the reference builds: the same ten operations. -/
theorem sign_eq : (Cert.KernelIdeal.Gen.signMat : FVec Ideal Cert.KernelIdeal.S512x512 .f32)
    = Cert.ReferenceIdeal.ReadP.val_main_v25 (F := Ideal) := rfl

/-- From memories agreeing on the arguments both programs end at `Spec.total` of the same 256 row losses and the
    same 256 maxima. -/
theorem algebraic : Cert.algebraic_KernelIdeal_ReferenceIdeal := by
  intro m ρ m' ρ' hpre hagree
  refine ⟨fun c => Cert.KernelIdeal.Gen.W5 m ρ c (Proc.devRef .tc Cert.KernelIdeal.main_v18), Cert.KernelIdeal.Gen.run_named m ρ, ?_⟩
  refine (θ_run Cert.ReferenceIdeal.defs _ _).mono (fun _ h c => ⟨(h c).1.trans ?_, (h c).2⟩)
    (Cert.ReferenceIdeal.ValueP.run (F := Ideal) m' ρ')
  obtain ⟨hfin, hrange⟩ := Cert.Pre_finite_inputs.decode _ _ _ (hpre c)
  rw [Cert.ReferenceIdeal.ReadP.val_main_v33_eq, (hagree c).1, (hagree c).2.1, (hagree c).2.2]
  funext j
  obtain rfl : j = ix0 := eq_ix0 j
  refine (Cert.ReferenceIdeal.RefValue.total_apply _ _ _).trans ((Cert.KernelIdeal.Gen.result_eq m ρ c).trans ?_).symm
  refine congrArg₂ Cert.Spec.total (funext fun r => ?_) (funext fun r => ?_)
  · -- row r of the first call's column against the reference's loss of row r
    have hx : (fun k => Cert.KernelIdeal.Gen.xarr (Cert.KernelIdeal.Gen.V1 m ρ) c (ix2 r k))
        = fun k => (m ((c : Thread Cert.KernelIdeal.nD Cert.KernelIdeal.τ).loc Cert.KernelIdeal.main_arg0) : FVec Ideal Cert.KernelIdeal.S256x32000 .f32) (ix2 r k) := by
      funext k; exact congrFun (Cert.KernelIdeal.Gen.V1_arg0 m ρ c) (ix2 r k)
    have ht : Cert.KernelIdeal.Gen.tarr (Cert.KernelIdeal.Gen.V1 m ρ) c (ix2 r (0 : Fin 1))
        = (m ((c : Thread Cert.KernelIdeal.nD Cert.KernelIdeal.τ).loc Cert.KernelIdeal.main_arg2) : Vec Ideal Cert.KernelIdeal.S256 .i32) (ix1 r) :=
      Cert.KernelIdeal.Gen.V1_v0_apply m ρ c r
    rw [Cert.KernelIdeal.Gen.ce_arr, hx, ht, Cert.ReferenceIdeal.RefValue.loss_apply _ _ r (hrange (ix1 r))]
    exact Cert.Spec.ceK_eq_ceR _ _ (fun k => hfin (ix2 r k)) (hrange (ix1 r))
  · -- row r of the second call's column against the reference's maximum of matrix r
    have hw : Cert.KernelIdeal.Gen.warr (Cert.KernelIdeal.Gen.V3 m ρ) c = m ((c : Thread Cert.KernelIdeal.nD Cert.KernelIdeal.τ).loc Cert.KernelIdeal.main_arg1) :=
      Cert.KernelIdeal.Gen.V3_arg1 m ρ c
    have hs : Cert.KernelIdeal.Gen.sarr (Cert.KernelIdeal.Gen.V3 m ρ) c = Cert.KernelIdeal.Gen.signMat :=
      Cert.KernelIdeal.Gen.V3_v10 m ρ c
    rw [Cert.KernelIdeal.Gen.w_arr, hw, hs, Cert.ReferenceIdeal.RefValue.wmax_apply, ← sign_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
